-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S2x128 .f32) (main_arg8 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x128 .f32) (main_arg6 : FVec F S128 .f32) (main_arg7 : FVec F S2x128 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S50000x1 : Shape := ⟨2, ![50000, 1]⟩
abbrev S1x128 : Shape := ⟨2, ![1, 128]⟩
abbrev S64x128 : Shape := ⟨2, ![64, 128]⟩
abbrev S5000x1 : Shape := ⟨2, ![5000, 1]⟩
abbrev S5000x64 : Shape := ⟨2, ![5000, 64]⟩
abbrev S64 : Shape := ⟨1, ![64]⟩
abbrev S64x1 : Shape := ⟨2, ![64, 1]⟩
abbrev S128x2 : Shape := ⟨2, ![128, 2]⟩
abbrev S1x2 : Shape := ⟨2, ![1, 2]⟩
abbrev S64x2 : Shape := ⟨2, ![64, 2]⟩

abbrev nBuf : Space → Nat
  | .hbm => 101
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S2x128, .f32⟩
  | .hbm, ⟨8, _⟩ => ⟨S2, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .bf16⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .bf16⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x256, .f32⟩
  | .hbm, ⟨68, _⟩ => ⟨S50000x256, .f32⟩
  | .hbm, ⟨69, _⟩ => ⟨S50000x128, .f32⟩
  | .hbm, ⟨70, _⟩ => ⟨S50000x128, .bf16⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .bf16⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S50000x1, .i32⟩
  | .hbm, ⟨89, _⟩ => ⟨S1x128, .f32⟩
  | .hbm, ⟨90, _⟩ => ⟨S64x128, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S64, .f32⟩
  | .hbm, ⟨95, _⟩ => ⟨S50000x1, .i32⟩
  | .hbm, ⟨96, _⟩ => ⟨S64, .f32⟩
  | .hbm, ⟨97, _⟩ => ⟨S64x1, .f32⟩
  | .hbm, ⟨98, _⟩ => ⟨S128x2, .f32⟩
  | .hbm, ⟨99, _⟩ => ⟨S1x2, .f32⟩
  | .hbm, ⟨100, _⟩ => ⟨S64x2, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x1, .i32⟩
  | .local _ .vmem, ⟨15, _⟩ => ⟨S5000x1, .i32⟩
  | .local _ .vmem, ⟨16, _⟩ => ⟨S64x128, .f32⟩
  | .local _ .vmem, ⟨17, _⟩ => ⟨S64x128, .f32⟩
  | .local _ .vmem, ⟨18, _⟩ => ⟨S64x1, .f32⟩
  | .local _ .vmem, ⟨19, _⟩ => ⟨S128x2, .f32⟩
  | .local _ .vmem, ⟨20, _⟩ => ⟨S1x2, .f32⟩
  | .local _ .vmem, ⟨21, _⟩ => ⟨S64x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S50000_S50000x1 : S50000.ShapeCasts S50000x1
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  iota_S5000x64_d0_w32 : S5000x64.Iotas .tc 32 [0]
  iota_S5000x64_d1_w32 : S5000x64.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S64x128_S64x128 : S64x128.ShapeCasts S64x128
  bcast_S_S64 : S_.BroadcastsInDim S64 (![] : Fin 0 → Fin S64.rank)
  bcast_S50000_S50000x1_0 : S50000.BroadcastsInDim S50000x1 (![0] : Fin 1 → Fin S50000x1.rank)
  shapeCasts_S64_S64x1 : S64.ShapeCasts S64x1
  transposes_S2x128_S128x2_1_0 : S2x128.Transposes [1, 0] S128x2
  shapeCasts_S2_S1x2 : S2.ShapeCasts S1x2
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  dot_S5000x64_S5000x128_S64x128_0_0_1_1_n_n_wf : DotDims.WF S5000x64 S5000x128 S64x128 [0] [0] [1] [1] [] []
  scatter_S64_S50000x1_S50000_n_0_0_1_wf : ScatterDims.WF S64 S50000x1 S50000 [] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .i32 = 32 ∨ (Rect.block (s := S50000x1) S5000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x2.size a ≤ S128x2.size a
  hwx3_2 : ∀ i : grid3.Coords, EltTy.bits .f32 = 32 ∨ (Rect.block (s := S128x2) S128x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x2.size a ≤ S64x2.size a
  hwx3_4 : ∀ i : grid3.Coords, EltTy.bits .f32 = 32 ∨ (Rect.block (s := S64x2) S64x2.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_v44) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S64x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v65) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v70) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S128x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S64x2.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S50000x256 : Shape := ⟨2, ![50000, 256]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S128x2 : Shape := ⟨2, ![128, 2]⟩
abbrev S64x2 : Shape := ⟨2, ![64, 2]⟩
abbrev S1x2 : Shape := ⟨2, ![1, 2]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x128, .f32⟩
  | 6 => ⟨S128, .f32⟩
  | 7 => ⟨S2x128, .f32⟩
  | 8 => ⟨S2, .f32⟩
  | 9 => ⟨S1x800000, .i32⟩
  | 10 => ⟨S800000, .i32⟩
  | 11 => ⟨S1x800000, .i32⟩
  | 12 => ⟨S800000, .i32⟩
  | 13 => ⟨S50000x256, .f32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x128, .f32⟩
  | 73 => ⟨S50000, .i32⟩
  | 74 => ⟨S850000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x1, .f32⟩
  | 119 => ⟨S850000x128, .f32⟩
  | 120 => ⟨S850000x128, .f32⟩
  | 121 => ⟨S_, .f32⟩
  | 122 => ⟨S50000x128, .f32⟩
  | 123 => ⟨S850000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S_, .f32⟩
  | 4 => ⟨S64x128, .f32⟩
  | 5 => ⟨S50000x1, .i32⟩
  | 6 => ⟨S64x128, .f32⟩
  | 7 => ⟨S_, .f32⟩
  | 8 => ⟨S50000, .f32⟩
  | 9 => ⟨S_, .f32⟩
  | 10 => ⟨S64, .f32⟩
  | 11 => ⟨S50000x1, .i32⟩
  | 12 => ⟨S64, .f32⟩
  | 13 => ⟨S_, .f32⟩
  | 14 => ⟨S64, .f32⟩
  | 15 => ⟨S64, .f32⟩
  | 16 => ⟨S64x1, .f32⟩
  | 17 => ⟨S64x128, .f32⟩
  | 18 => ⟨S64x128, .f32⟩
  | 19 => ⟨S128x2, .f32⟩
  | 20 => ⟨S64x2, .f32⟩
  | 21 => ⟨S1x2, .f32⟩
  | 22 => ⟨S64x2, .f32⟩
  | 23 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S2x128_S128x2_1_0 : S2x128.Transposes [1, 0] S128x2
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x2_S64x2_1_0_0_1_n_n_wf : DotDims.WF S64x128 S128x2 S64x2 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.Spec.lean ====
/-
  The four dense stages of the two-layer graph convolution, each as ONE function of whole arrays read index by
  index over the extended reals: the affine layer followed by max(·, 0) (`denseRelu`), the plain matrix product
  (`dense`), the pooled sums — every node's rectified row added into the row of the graph its label names
  (`pooled`) — and the classifier head on the per-graph means (`head`).
-/
import Idealize.ShloMosaic.PureOps.Ideal
import Idealize.ShloMosaic.Lib.ValueIdx

noncomputable section

namespace Cert.Spec

open Idealize.ShloMosaic Idealize.ShloMosaic.ValueIdx

/-- An array of extended reals with `r` rows and `c` columns. -/
abbrev Arr (r c : Nat) : Type := (⟨2, ![r, c]⟩ : Shape).Idx → EReal

/-- max(a · w + b, 0): entry (i, j) is the sum over k of a(i, k) · w(k, j), plus b(0, j), cut below at zero. -/
def denseRelu (a : Arr 50000 128) (w : Arr 128 256) (b : Arr 1 256) : Arr 50000 256 :=
  fun j => max ((∑ k : Fin 128, a (ix2 (j 0) k) * w (ix2 k (j 1))) + b (ix2 0 (j 1))) 0

/-- h · w: entry (i, j) is the sum over k of h(i, k) · w(k, j). -/
def dense (h : Arr 50000 256) (w : Arr 256 128) : Arr 50000 128 :=
  fun j => ∑ k : Fin 256, h (ix2 (j 0) k) * w (ix2 k (j 1))

/-- Entry (g, f): the sum over the nodes i whose label word is g of max(a(i, f) + b(0, f), 0). -/
def pooled (a : Arr 50000 128) (b : Arr 1 128) (lbl : (⟨2, ![50000, 1]⟩ : Shape).Idx → BitVec 32) : Arr 64 128 :=
  fun j => ∑ i : Fin 50000,
    (if lbl (ix2 i 0) = BitVec.ofNat 32 (j 0).val then (1 : EReal) else 0) * max (a (ix2 i (j 1)) + b (ix2 0 (j 1))) 0

/-- Entry (g, c): the sum over f of (s(g, f) / max(n(g, 0), 1)) · wt(f, c), plus bl(0, c). -/
def head (s : Arr 64 128) (n : Arr 64 1) (wt : Arr 128 2) (bl : Arr 1 2) : Arr 64 2 :=
  fun j => (∑ f : Fin 128, Ideal.div (s (ix2 (j 0) f)) (max (n (ix2 (j 0) 0)) 1) * wt (ix2 f (j 1))) + bl (ix2 0 (j 1))

end Cert.Spec

end
-- ==== Proof.KernelTerms.lean ====
/-
  The kernel program's host arithmetic between its four dense stages, as whole-array terms of the operations the
  program prints, read at the extended reals: the edge endpoints with the self loops appended, the node degrees and
  their inverse square roots, the per-edge weight, the weighted neighbourhood sum of a node array, the graph sizes —
  and the program's result as ONE term of its nine arguments (`kernelValue`).
-/
import proofs.«403521_j14817637171423_2_alg».proof.KernelIdeal
import proofs.«403521_j14817637171423_2_alg».proof.Proof.Gen.KernelIdeal
import proofs.«403521_j14817637171423_2_alg».proof.Proof.Spec

noncomputable section

namespace Cert.KernelIdeal.Terms

open Cert.KernelIdeal Cert.KernelIdeal.Gen Idealize.ShloMosaic

/-- The scalar 0.0. -/
abbrev zeroF : FVec Ideal S_ .f32 := constant (F := Ideal) S_ .f32 0x00000000#32
/-- The scalar 1.0. -/
abbrev oneF : FVec Ideal S_ .f32 := constant (F := Ideal) S_ .f32 0x3F800000#32

/-- The source node of every message: row 0 of the edge list, then the 50000 self loops 0, 1, …. -/
def srcIdx (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The target node of every message: row 1 of the edge list, then the self loops. -/
def dstIdx (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- An index column as a gather reads it: a negative word has 50000 added first. -/
def wrapIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- An index column as a scatter reads it: the words as they are. -/
def rawIdx (v : IVec S850000 32) : IVec S850000x1 32 :=
  broadcastInDim S850000x1 ![0] bcast_S850000_S850000x1_0 v

/-- The number of messages arriving at each node. -/
def degree (ei : IVec S2x800000 32) : FVec Ideal S50000 .f32 :=
  Host.scatterAdd scatter_S50000_S850000x1_S850000_n_0_0_1 (broadcastInDim S50000 ![] bcast_S_S50000 zeroF)
    (rawIdx (dstIdx ei)) (broadcastInDim S850000 ![] bcast_S_S850000 oneF)

/-- degree^(-1/2) where the degree is positive, else 0. -/
def invSqrtDeg (ei : IVec S2x800000 32) : FVec Ideal S50000 .f32 :=
  select (cmpf (F := Ideal) .ogt (degree ei) (broadcastInDim S50000 ![] bcast_S_S50000 zeroF)) (Host.rsqrt (degree ei))
    (broadcastInDim S50000 ![] bcast_S_S50000 (id zeroF))

/-- The weight of every message: the product of the two endpoints' inverse square root degrees. -/
def edgeNorm (ei : IVec S2x800000 32) : FVec Ideal S850000 .f32 :=
  mulf (Host.gather gather_S50000_S850000x1_S850000_n_0_n_n_0_1_1 (invSqrtDeg ei) (wrapIdx (srcIdx ei)))
    (Host.gather gather_S50000_S850000x1_S850000_n_0_n_n_0_1_1 (invSqrtDeg ei) (wrapIdx (dstIdx ei)))

/-- The weighted neighbourhood sum of a node array: row i is the sum over the messages arriving at i of the
    source's row times the message's weight. -/
def aggregate (v : FVec Ideal S50000x128 .f32) (ei : IVec S2x800000 32) : FVec Ideal S50000x128 .f32 :=
  Host.scatterAdd scatter_S50000x128_S850000x1_S850000x128_1_0_0_1 (broadcastInDim S50000x128 ![] bcast_S_S50000x128 zeroF)
    (rawIdx (dstIdx ei))
    (mulf (extf .f32 (Host.gather gather_S50000x128_S850000x1_S850000x128_1_0_n_n_0_1_1128 (truncf .bf16 v bitsLt_bf16_f32) (wrapIdx (srcIdx ei))) bitsLt_bf16_f32)
      (broadcastInDim S850000x128 ![0, 1] bcast_S850000x1_S850000x128_0_1
        (broadcastInDim S850000x1 ![0] bcast_S850000_S850000x1_0 (edgeNorm ei))))

/-- The number of nodes of each graph, as a column. -/
def counts (batch : IVec S50000 32) : FVec Ideal S64x1 .f32 :=
  shapeCast S64x1 (Host.scatterAdd scatter_S64_S50000x1_S50000_n_0_0_1 (broadcastInDim S64 ![] bcast_S_S64 zeroF)
    (broadcastInDim S50000x1 ![0] bcast_S50000_S50000x1_0 batch) (broadcastInDim S50000 ![] bcast_S_S50000 oneF)) shapeCasts_S64_S64x1

/-- The kernel program's result as one term of its arguments. -/
def kernelValue (x : FVec Ideal S50000x128 .f32) (ei : IVec S2x800000 32) (batch : IVec S50000 32)
    (W1 : FVec Ideal S128x256 .f32) (b1 : FVec Ideal S256 .f32) (W2 : FVec Ideal S256x128 .f32) (b2 : FVec Ideal S128 .f32)
    (Wl : FVec Ideal S2x128 .f32) (bl : FVec Ideal S2 .f32) : FVec Ideal S64x2 .f32 :=
  Spec.head
    (Spec.pooled
      (aggregate (Spec.dense (Spec.denseRelu (aggregate x ei) W1 (shapeCast S1x256 b1 shapeCasts_S256_S1x256)) W2) ei)
      (shapeCast S1x128 b2 shapeCasts_S128_S1x128) (shapeCast S50000x1 batch shapeCasts_S50000_S50000x1))
    (counts batch) (transpose S128x2 [1, 0] Wl transposes_S2x128_S128x2_1_0) (shapeCast S1x2 bl shapeCasts_S2_S1x2)

end Cert.KernelIdeal.Terms

end
-- ==== Proof.KernelHostA.lean ====
/-
  The kernel program's buffers when region 0 is entered, after the three stretches of host arithmetic that open @main: the edge endpoints, the per-edge weight, the weighted neighbourhood sum of the input features and the reshaped bias, each as its term of the arguments; every argument as launched.

  The three stretches are read one after the other. The first builds the two endpoint columns (a row of the edge
  list, then the self loops), the degrees (ones scattered to the targets), their positivity mask and their inverse
  square roots. The second, the body of a `where`, selects the inverse square root where the degree is positive and
  0 elsewhere. The third gathers that at both endpoints of every message and multiplies (the weight), then gathers the
  rounded features at the sources, scales every gathered row by its message's weight and scatters the rows to the
  targets (the neighbourhood sum); it also reshapes the first bias to a row. The second and third stretches are read
  from ARBITRARY contents first — what they leave is a term of what they found at the buffers they read — and then
  from what the stretch before left.
-/
import proofs.«403521_j14817637171423_2_alg».proof.Proof.Gen.KernelIdeal.Frame
import proofs.«403521_j14817637171423_2_alg».proof.Proof.KernelTerms
import Idealize.ShloMosaic.Lib.StableHlo.Run

noncomputable section

namespace Cert.KernelIdeal.HostA

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-! ## The third stretch's two results as functions of what it reads -/

/-- The weight of every message from the nodes' inverse square root degrees and the two endpoint columns. -/
def normOf (d : FVec Ideal S50000 .f32) (s t : IVec S850000 32) : FVec Ideal S850000 .f32 :=
  mulf (Host.gather gather_S50000_S850000x1_S850000_n_0_n_n_0_1_1 d (Terms.wrapIdx s))
    (Host.gather gather_S50000_S850000x1_S850000_n_0_n_n_0_1_1 d (Terms.wrapIdx t))

/-- The weighted neighbourhood sum of a node array from the two endpoint columns and the messages' weights. -/
def aggOf (v : FVec Ideal S50000x128 .f32) (s t : IVec S850000 32) (w : FVec Ideal S850000 .f32) : FVec Ideal S50000x128 .f32 :=
  Host.scatterAdd scatter_S50000x128_S850000x1_S850000x128_1_0_0_1 (broadcastInDim S50000x128 ![] bcast_S_S50000x128 Terms.zeroF)
    (Terms.rawIdx t)
    (mulf (extf .f32 (Host.gather gather_S50000x128_S850000x1_S850000x128_1_0_n_n_0_1_1128 (truncf .bf16 v bitsLt_bf16_f32) (Terms.wrapIdx s)) bitsLt_bf16_f32)
      (broadcastInDim S850000x128 ![0, 1] bcast_S850000x1_S850000x128_0_1
        (broadcastInDim S850000x1 ![0] bcast_S850000_S850000x1_0 w)))

/-- The per-edge weight is `normOf` at the graph's inverse square root degrees and endpoint columns. -/
theorem edgeNorm_eq (ei : IVec S2x800000 32) :
    Terms.edgeNorm ei = normOf (Terms.invSqrtDeg ei) (Terms.srcIdx ei) (Terms.dstIdx ei) := rfl
/-- The neighbourhood sum is `aggOf` at the graph's endpoint columns and per-edge weight. -/
theorem aggregate_eq (v : FVec Ideal S50000x128 .f32) (ei : IVec S2x800000 32) :
    Terms.aggregate v ei = aggOf v (Terms.srcIdx ei) (Terms.dstIdx ei) (Terms.edgeNorm ei) := rfl

/-! ## After the first stretch -/

/-- The message sources: row 0 of the edge list, then the self loops. -/
theorem W1_src : W1 m ρ c (Proc.devRef .tc main_v5) = Terms.srcIdx (m ((c : Thread nD τ).loc main_arg1)) := by
  dsimp only [W1, W0, hostOps0]
  after_results <;> rfl
/-- The message targets: row 1 of the edge list, then the self loops. -/
theorem W1_dst : W1 m ρ c (Proc.devRef .tc main_v6) = Terms.dstIdx (m ((c : Thread nD τ).loc main_arg1)) := by
  dsimp only [W1, W0, hostOps0]
  after_results <;> rfl
/-- Where the degree is positive. -/
theorem W1_pos : W1 m ρ c (Proc.devRef .tc main_v12) = cmpf (F := Ideal) .ogt (Terms.degree (m ((c : Thread nD τ).loc main_arg1))) (broadcastInDim S50000 ![] bcast_S_S50000 Terms.zeroF) := by
  dsimp only [W1, W0, hostOps0]
  after_results <;> rfl
/-- The degrees' inverse square roots, taken everywhere. -/
theorem W1_rsqrt : W1 m ρ c (Proc.devRef .tc main_v13) = Host.rsqrt (Terms.degree (m ((c : Thread nD τ).loc main_arg1))) := by
  dsimp only [W1, W0, hostOps0]
  after_results <;> rfl
/-- The scalar 0.0 the `where` falls back to. -/
theorem W1_zero : W1 m ρ c (Proc.devRef .tc main_cst_2) = Terms.zeroF := by
  dsimp only [W1, W0, hostOps0]
  after_results <;> rfl
/-- The first stretch writes no argument. -/
theorem W1_arg0 : W1 m ρ c (Proc.devRef .tc main_arg0) = (m ((c : Thread nD τ).loc main_arg0)) := by
  dsimp only [W1, W0, hostOps0]
  after_results <;> rfl
/-- The first stretch writes no argument. -/
theorem W1_arg4 : W1 m ρ c (Proc.devRef .tc main_arg4) = (m ((c : Thread nD τ).loc main_arg4)) := by
  dsimp only [W1, W0, hostOps0]
  after_results <;> rfl

/-! ## The second stretch, from arbitrary contents, and after the first -/

section Step2
variable (V : Valuation τ sig (Elt Ideal))

/-- The `where`: the second operand where the mask is set, the broadcast scalar elsewhere. -/
theorem step2_inv : StableHlo.after hostOps0_1 V (Proc.devRef .tc main_v14)
    = select (V (Proc.devRef .tc main_v12) : IVec S50000 1) (V (Proc.devRef .tc main_v13) : FVec Ideal S50000 .f32)
        (broadcastInDim S50000 ![] bcast_S_S50000 (id (V (Proc.devRef .tc main_cst_2) : FVec Ideal S_ .f32))) := by
  dsimp only [hostOps0_1]
  after_results <;> rfl
/-- The `where` writes only its own three values. -/
theorem step2_src : StableHlo.after hostOps0_1 V (Proc.devRef .tc main_v5) = V (Proc.devRef .tc main_v5) := by
  dsimp only [hostOps0_1]
  after_results <;> rfl
theorem step2_dst : StableHlo.after hostOps0_1 V (Proc.devRef .tc main_v6) = V (Proc.devRef .tc main_v6) := by
  dsimp only [hostOps0_1]
  after_results <;> rfl
theorem step2_arg0 : StableHlo.after hostOps0_1 V (Proc.devRef .tc main_arg0) = V (Proc.devRef .tc main_arg0) := by
  dsimp only [hostOps0_1]
  after_results <;> rfl
theorem step2_arg4 : StableHlo.after hostOps0_1 V (Proc.devRef .tc main_arg4) = V (Proc.devRef .tc main_arg4) := by
  dsimp only [hostOps0_1]
  after_results <;> rfl

end Step2

theorem W2_src : W2 m ρ c (Proc.devRef .tc main_v5) = Terms.srcIdx (m ((c : Thread nD τ).loc main_arg1)) :=
  (step2_src (W1 m ρ c)).trans (W1_src m ρ c)
theorem W2_dst : W2 m ρ c (Proc.devRef .tc main_v6) = Terms.dstIdx (m ((c : Thread nD τ).loc main_arg1)) :=
  (step2_dst (W1 m ρ c)).trans (W1_dst m ρ c)
theorem W2_arg0 : W2 m ρ c (Proc.devRef .tc main_arg0) = (m ((c : Thread nD τ).loc main_arg0)) :=
  (step2_arg0 (W1 m ρ c)).trans (W1_arg0 m ρ c)
theorem W2_arg4 : W2 m ρ c (Proc.devRef .tc main_arg4) = (m ((c : Thread nD τ).loc main_arg4)) :=
  (step2_arg4 (W1 m ρ c)).trans (W1_arg4 m ρ c)
/-- The inverse square root degrees: the `where` of the first stretch's mask, inverse square roots and zero. -/
theorem W2_inv : W2 m ρ c (Proc.devRef .tc main_v14) = Terms.invSqrtDeg (m ((c : Thread nD τ).loc main_arg1)) :=
  (step2_inv (W1 m ρ c)).trans (by rw [W1_pos, W1_rsqrt, W1_zero]; rfl)

/-! ## The third stretch, from arbitrary contents -/

section Step3
variable (V : Valuation τ sig (Elt Ideal))

/-- The weight: both endpoints' gathers of the inverse square root degrees, multiplied. -/
theorem step3_norm :
    StableHlo.after hostOps0_2 V (Proc.devRef .tc main_v29)
      = normOf (V (Proc.devRef .tc main_v14)) (V (Proc.devRef .tc main_v5)) (V (Proc.devRef .tc main_v6)) := by
  dsimp only [hostOps0_2]
  after_results_simp <;> rfl
/-- The neighbourhood sum of the first argument, at the weight the same stretch has just computed. -/
theorem step3_agg :
    StableHlo.after hostOps0_2 V (Proc.devRef .tc main_v44)
      = aggOf (V (Proc.devRef .tc main_arg0)) (V (Proc.devRef .tc main_v5)) (V (Proc.devRef .tc main_v6))
          (normOf (V (Proc.devRef .tc main_v14)) (V (Proc.devRef .tc main_v5)) (V (Proc.devRef .tc main_v6))) := by
  dsimp only [hostOps0_2]
  after_results_simp <;> rfl
/-- The endpoint columns are read, never written. -/
theorem step3_src : StableHlo.after hostOps0_2 V (Proc.devRef .tc main_v5) = V (Proc.devRef .tc main_v5) := by
  dsimp only [hostOps0_2]
  after_results_simp <;> rfl
theorem step3_dst : StableHlo.after hostOps0_2 V (Proc.devRef .tc main_v6) = V (Proc.devRef .tc main_v6) := by
  dsimp only [hostOps0_2]
  after_results_simp <;> rfl
/-- The first bias as a row. -/
theorem step3_b1 : StableHlo.after hostOps0_2 V (Proc.devRef .tc main_v45)
    = shapeCast S1x256 (V (Proc.devRef .tc main_arg4) : FVec Ideal S256 .f32) shapeCasts_S256_S1x256 := by
  dsimp only [hostOps0_2]
  after_results_simp <;> rfl

end Step3

/-! ## At region 0's entry -/

/-- The message sources at region 0's entry. -/
theorem W3_src : W3 m ρ c (Proc.devRef .tc main_v5) = Terms.srcIdx (m ((c : Thread nD τ).loc main_arg1)) :=
  (step3_src (W2 m ρ c)).trans (W2_src m ρ c)
/-- The message targets at region 0's entry. -/
theorem W3_dst : W3 m ρ c (Proc.devRef .tc main_v6) = Terms.dstIdx (m ((c : Thread nD τ).loc main_arg1)) :=
  (step3_dst (W2 m ρ c)).trans (W2_dst m ρ c)
/-- The per-edge weight at region 0's entry. -/
theorem W3_norm : W3 m ρ c (Proc.devRef .tc main_v29) = Terms.edgeNorm (m ((c : Thread nD τ).loc main_arg1)) :=
  (step3_norm (W2 m ρ c)).trans (by rw [W2_inv, W2_src, W2_dst, edgeNorm_eq])
/-- The aggregated input features at region 0's entry. -/
theorem W3_agg : W3 m ρ c (Proc.devRef .tc main_v44) = Terms.aggregate (m ((c : Thread nD τ).loc main_arg0)) (m ((c : Thread nD τ).loc main_arg1)) :=
  (step3_agg (W2 m ρ c)).trans (by rw [W2_inv, W2_src, W2_dst, W2_arg0, aggregate_eq, edgeNorm_eq])
/-- The first bias as a row at region 0's entry. -/
theorem W3_b1 : W3 m ρ c (Proc.devRef .tc main_v45) = shapeCast S1x256 (m ((c : Thread nD τ).loc main_arg4)) shapeCasts_S256_S1x256 :=
  (step3_b1 (W2 m ρ c)).trans (by rw [W2_arg4])
/-- The arguments the later segments read are as launched at region 0's entry: none of the sixty operations writes one. -/
theorem W3_arg2 : W3 m ρ c (Proc.devRef .tc main_arg2) = (m ((c : Thread nD τ).loc main_arg2)) := by
  dsimp only [W3, W2, W1, W0, hostOps0, hostOps0_1, hostOps0_2]
  after_results_simp <;> rfl
theorem W3_arg3 : W3 m ρ c (Proc.devRef .tc main_arg3) = (m ((c : Thread nD τ).loc main_arg3)) := by
  dsimp only [W3, W2, W1, W0, hostOps0, hostOps0_1, hostOps0_2]
  after_results_simp <;> rfl
theorem W3_arg5 : W3 m ρ c (Proc.devRef .tc main_arg5) = (m ((c : Thread nD τ).loc main_arg5)) := by
  dsimp only [W3, W2, W1, W0, hostOps0, hostOps0_1, hostOps0_2]
  after_results_simp <;> rfl
theorem W3_arg6 : W3 m ρ c (Proc.devRef .tc main_arg6) = (m ((c : Thread nD τ).loc main_arg6)) := by
  dsimp only [W3, W2, W1, W0, hostOps0, hostOps0_1, hostOps0_2]
  after_results_simp <;> rfl
theorem W3_arg7 : W3 m ρ c (Proc.devRef .tc main_arg7) = (m ((c : Thread nD τ).loc main_arg7)) := by
  dsimp only [W3, W2, W1, W0, hostOps0, hostOps0_1, hostOps0_2]
  after_results_simp <;> rfl
theorem W3_arg8 : W3 m ρ c (Proc.devRef .tc main_arg8) = (m ((c : Thread nD τ).loc main_arg8)) := by
  dsimp only [W3, W2, W1, W0, hostOps0, hostOps0_1, hostOps0_2]
  after_results_simp <;> rfl

end Cert.KernelIdeal.HostA

end
-- ==== Proof.Region0.lean ====
/-
  Region 0 of the kernel program (the affine layer with max(·, 0), node tiles of 5000 rows): what its output array holds when the region ends, as one function of the arrays it found.

  The region runs over 10 grid points. At point t it reads rows 5000·t … 5000·t + 4999 of a (a 5000 × 128 tile), the
  whole of w (128 × 256) and the whole of the one-row array b (1 × 256), and writes back the 5000 × 256 tile whose
  entry (p, q) is max(∑ₖ tile(p, k) · w(k, q) + b(0, q), 0) — the same entry of max(a · w + b, 0) at row 5000·t + p.
  The ten tiles are disjoint and fill the 50000 rows (row r lies in tile r / 5000), so the array ends holding
  max(a · w + b, 0).
-/
import proofs.«403521_j14817637171423_2_alg».proof.Proof.Gen.KernelIdeal.Frame
import proofs.«403521_j14817637171423_2_alg».proof.Proof.Spec
import Idealize.ShloMosaic.Lib.Pipeline.Value
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx

/-! ## One entry of a tile's affine layer -/

/-- The left operand's row is the output's row. -/
theorem lhs_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- The left operand's column is the summation index. -/
theorem lhs_col (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
/-- The right operand's row is the summation index. -/
theorem rhs_row (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
/-- The right operand's column is the output's column. -/
theorem rhs_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry (p, q) of the tile's product into the zero array: the sum over k of the first tile at (p, k) times the
    second at (k, q); narrowing either operand is the identity on the extended reals. -/
theorem tile_product (x0 : FVec Ideal S5000x128 .bf16) (x1 : FVec Ideal S128x256 .bf16) (p : Fin 5000) (q : Fin 256) :
    FloatOps.matmul dot_S5000x128_S128x256_S5000x256_1_0_0_1_n_n none x0 x1 (constant S5000x256 .f32 0x00000000#32) (ix2 p q)
      = ∑ k : Fin 128, x0 (ix2 p k) * x1 (ix2 k q) := by
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhs_row _ _).trans hk
    | ⟨1, _⟩ => exact rhs_col _ _)
  rw [el, er]

/-- Entry (p, q) of what the body stores: the tile product's entry, plus the bias row at q (the one row laid along
    every row of the tile), cut below at zero (the float word of 0.0 is 0). -/
theorem tile_layer (x0 : Vec Ideal S5000x128 .f32) (x1 : Vec Ideal S128x256 .f32) (x2 : Vec Ideal S1x256 .f32) (p : Fin 5000) (q : Fin 256) :
    k0_pay1 x0 x1 x2 (ix2 p q) = max ((∑ k : Fin 128, x0 (ix2 p k) * x1 (ix2 k q)) + x2 (ix2 (0 : Fin 1) q)) 0 := by
  unfold k0_pay1
  simp only [matmul]
  rw [maximumf_apply, addf_apply, broadcast_apply, tile_product, broadcastTo_1b_ab_apply, shapeCast_self, shapeCast_self]
  show max ((∑ k : Fin 128, x0 (ix2 p k) * x1 (ix2 k q)) + x2 (ix2 (0 : Fin 1) q)) (Ideal.ofBits .f32 0x00000000#32) = _
  rw [Ideal.ofBits_zero_f32]

/-! ## From tiles to the array -/

theorem zero_offsets : (![0, 0] : Fin 2 → Nat) = fun _ => 0 := funext fun a => by fin_cases a <;> rfl

/-- Where the windows' blocks sit at grid point t: the tile of a and the tile of the output are the t-th block of 5000
    rows, at column block 0; the one block of w is the whole of w and the one block of b the whole of b. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of a tile's layer is the same entry of max(a · w + b, 0) at the row r of the whole array the tile's row p
    is, when the first tile's row p is a's row r, the second tile is w and the third is b. -/
theorem tile_entry (a : Spec.Arr 50000 128) (w : Spec.Arr 128 256) (b : Spec.Arr 1 256)
    (x0 : Vec Ideal S5000x128 .f32) (x1 : Vec Ideal S128x256 .f32) (x2 : Vec Ideal S1x256 .f32)
    (p : Fin 5000) (q : Fin 256) (r : Fin 50000)
    (h0 : ∀ k : Fin 128, x0 (ix2 p k) = a (ix2 r k)) (h1 : ∀ k : Fin 128, x1 (ix2 k q) = w (ix2 k q))
    (h2 : x2 (ix2 (0 : Fin 1) q) = b (ix2 (0 : Fin 1) q)) :
    k0_pay1 x0 x1 x2 (ix2 p q) = Spec.denseRelu a w b (ix2 r q) := by
  rw [tile_layer]
  show _ = max ((∑ k : Fin 128, a (ix2 r k) * w (ix2 k q)) + b (ix2 (0 : Fin 1) q)) 0
  rw [h2, Finset.sum_congr rfl fun k _ => by rw [h0 k, h1 k]]

/-- What grid point t writes back is block t of max(a · w + b, 0) of the arrays the region found. -/
theorem flushed_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal) (Spec.denseRelu (V c main_v44) (V c main_arg3) (V c main_v45)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x256) zero_offsets, View.ld_unit_zero (S := S1x256) zero_offsets]
  obtain ⟨e0, e1, e2, e3, e4, e5, e6, e7⟩ := block_positions t
  have hN : cfg0.N = 10 := N_0
  funext j
  obtain ⟨p, q, rfl⟩ : ∃ (p : Fin 5000) (q : Fin 256), j = ix2 p q := ⟨j 0, j 1, eq_ix2 j⟩
  have hr : t.val * 5000 + p.val < 50000 := by have := t.isLt; omega
  show k0_pay1 (iblk0 V c 0 t) (iblk0 V c 1 t) (iblk0 V c 2 t) (ix2 p q) = Spec.denseRelu (V c main_v44) (V c main_arg3) (V c main_v45) (((cfg0.win 3).blk t).view.emb (ix2 p q))
  have hout : ((cfg0.win 3).blk t).view.emb (ix2 p q) = ix2 (⟨t.val * 5000 + p.val, hr⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 256 + 1 * q.val = q.val; omega
  rw [hout]
  refine tile_entry (V c main_v44) (V c main_arg3) (V c main_v45) (iblk0 V c 0 t) (iblk0 V c 1 t) (iblk0 V c 2 t) p q ⟨t.val * 5000 + p.val, hr⟩ (fun k => ?_) (fun k => ?_) ?_
  · show V c main_v44 (((cfg0.win 0).blk t).view.emb (ix2 p k)) = V c main_v44 (ix2 (⟨t.val * 5000 + p.val, hr⟩ : Fin 50000) k)
    congr 1
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg3 (((cfg0.win 1).blk t).view.emb (ix2 k q)) = V c main_arg3 (ix2 k q)
    congr 1
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  · show V c main_v45 (((cfg0.win 2).blk t).view.emb (ix2 (0 : Fin 1) q)) = V c main_v45 (ix2 (0 : Fin 1) q)
    congr 1
    funext a; apply Fin.ext
    match a with
    | ⟨0, _⟩ => show win0_2.index t (0 : Fin 2) * 1 + 1 * 0 = 0; omega
    | ⟨1, _⟩ => show win0_2.index t (1 : Fin 2) * 256 + 1 * q.val = q.val; omega

/-- An index of the output array is in grid point t's block iff each coordinate is in the block's range on its axis. -/
theorem mem_tile (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v46).slice (win0_3.rect t)).set ↔ _
  rw [View.set_slice_whole, Rect.mem_set_unit]
  exact Iff.rfl

/-- Every row r of the output is in the block of grid point r / 5000, which is written back. -/
theorem covered (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := N_0
  have ht : (i 0).val / 5000 < cfg0.N := by rw [hN]; omega
  obtain ⟨e0, e1, e2, e3, e4, e5, e6, e7⟩ := block_positions ⟨(i 0).val / 5000, ht⟩
  refine ⟨⟨(i 0).val / 5000, ht⟩, flush0_3 _, ?_⟩
  rw [mem_tile]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 256 ≤ (i 1).val ∧ (i 1).val < win0_3.index ⟨(i 0).val / 5000, ht⟩ (1 : Fin 2) * 256 + 256
    rw [e7]; omega

/-- After region 0 its output array is max(a · w + b, 0) of the three arrays it read. -/
theorem value (V : (c : Dev nD) → (b : Ref sig .tc) → Buf (Elt Ideal) ((c : Thread nD τ).loc b)) (c : Dev nD) :
    (dat0 (F := Ideal) V c).arrAt 3 cfg0.N = Spec.denseRelu (V c main_v44) (V c main_arg3) (V c main_v45) :=
  (dat0 (F := Ideal) V c).arrAt_eq_of_cover 3 (Spec.denseRelu (V c main_v44) (V c main_arg3) (V c main_v45)) (fun t _ => flushed_eq V c t) covered

end Cert.KernelIdeal.Region0

end
-- ==== Proof.Region1.lean ====
/-
  Region 1 of the kernel program (the plain matrix product, node tiles of 5000 rows): what its output array holds when the region ends.

  The region runs over 10 grid points. At point t it reads rows 5000·t … 5000·t + 4999 of h (a 5000 × 256 tile) and
  the whole of w (256 × 128), and writes back the 5000 × 128 tile whose entry (p, q) is the sum over k of
  tile(p, k) · w(k, q) — the same entry of h · w at row 5000·t + p. The ten tiles are disjoint and fill the
  50000 rows (row r lies in tile r / 5000), so the array ends holding h · w.
-/
import proofs.«403521_j14817637171423_2_alg».proof.Proof.Gen.KernelIdeal.Frame
import proofs.«403521_j14817637171423_2_alg».proof.Proof.Spec
import Idealize.ShloMosaic.Lib.Pipeline.Value
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx

/-! ## One entry of a tile's product -/

/-- The left operand's row is the output's row. -/
theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's column is the summation index. -/
theorem lhs_col (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's row is the summation index. -/
theorem rhs_row (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- The right operand's column is the output's column. -/
theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (p, q) of what the body stores: the sum over k of the first tile at (p, k) times the second at (k, q). The
    narrowing of both operands is the identity on the extended reals and the accumulator is the zero array. -/
theorem tile_product (x0 : Vec Ideal S5000x256 .f32) (x1 : Vec Ideal S256x128 .f32) (p : Fin 5000) (q : Fin 128) :
    k1_pay1 x0 x1 (ix2 p q) = ∑ k : Fin 256, x0 (ix2 p k) * x1 (ix2 k q) := by
  unfold k1_pay1
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_row _ _).trans hk
    | ⟨1, _⟩ => exact rhs_col _ _)
  rw [el, er, truncf_apply, truncf_apply, shapeCast_self]

/-! ## From tiles to the array -/

theorem zero_offsets : (![0, 0] : Fin 2 → Nat) = fun _ => 0 := funext fun a => by fin_cases a <;> rfl

/-- Where the windows' blocks sit at grid point t: the tile of h and the tile of the output are the t-th block of 5000
    rows, at column block 0; the one block of w is the whole of w. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of a tile's product is the same entry of h · w at the row r of the whole array the tile's row p is,
    when the first tile's row p is h's row r and the second tile is w. -/
theorem tile_entry (h : Spec.Arr 50000 256) (w : Spec.Arr 256 128) (x0 : Vec Ideal S5000x256 .f32) (x1 : Vec Ideal S256x128 .f32)
    (p : Fin 5000) (q : Fin 128) (r : Fin 50000)
    (h0 : ∀ k : Fin 256, x0 (ix2 p k) = h (ix2 r k)) (h1 : ∀ k : Fin 256, x1 (ix2 k q) = w (ix2 k q)) :
    k1_pay1 x0 x1 (ix2 p q) = Spec.dense h w (ix2 r q) := by
  rw [tile_product]
  show _ = ∑ k : Fin 256, h (ix2 r k) * w (ix2 k q)
  exact Finset.sum_congr rfl fun k _ => by rw [h0 k, h1 k]

/-- What grid point t writes back is block t of h · w of the arrays the region found. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (Spec.dense (V c main_v46) (V c main_arg5)) := by
  show (cfg1.win 2).cut (grid1.coords t) ((dat1 V c).after 2 t) = _
  rw [after1_2]
  unfold out1_2
  rw [View.canon_unit_zero zero_offsets]
  simp only [View.ld_unit_zero (S := S5000x256) zero_offsets, View.ld_unit_zero (S := S256x128) zero_offsets]
  obtain ⟨e0, e1, e2, e3, e4, e5⟩ := block_positions t
  have hN : cfg1.N = 10 := N_1
  funext j
  obtain ⟨p, q, rfl⟩ : ∃ (p : Fin 5000) (q : Fin 128), j = ix2 p q := ⟨j 0, j 1, eq_ix2 j⟩
  have hr : t.val * 5000 + p.val < 50000 := by have := t.isLt; omega
  show k1_pay1 (iblk1 V c 0 t) (iblk1 V c 1 t) (ix2 p q) = Spec.dense (V c main_v46) (V c main_arg5) (((cfg1.win 2).blk t).view.emb (ix2 p q))
  have hout : ((cfg1.win 2).blk t).view.emb (ix2 p q) = ix2 (⟨t.val * 5000 + p.val, hr⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [hout]
  refine tile_entry (V c main_v46) (V c main_arg5) (iblk1 V c 0 t) (iblk1 V c 1 t) p q ⟨t.val * 5000 + p.val, hr⟩ (fun k => ?_) (fun k => ?_)
  · show V c main_v46 (((cfg1.win 0).blk t).view.emb (ix2 p k)) = V c main_v46 (ix2 (⟨t.val * 5000 + p.val, hr⟩ : Fin 50000) k)
    congr 1
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  · show V c main_arg5 (((cfg1.win 1).blk t).view.emb (ix2 k q)) = V c main_arg5 (ix2 k q)
    congr 1
    funext a; apply Fin.ext
    match a with
    | ⟨0, _⟩ => show win1_1.index t (0 : Fin 2) * 256 + 1 * k.val = k.val; omega
    | ⟨1, _⟩ => show win1_1.index t (1 : Fin 2) * 128 + 1 * q.val = q.val; omega

/-- An index of the output array is in grid point t's block iff each coordinate is in the block's range on its axis. -/
theorem mem_tile (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every row r of the output is in the block of grid point r / 5000, which is written back. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨e0, e1, e2, e3, e4, e5⟩ := block_positions ⟨(i 0).val / 5000, ht⟩
  refine ⟨⟨(i 0).val / 5000, ht⟩, flush1_2 _, ?_⟩
  rw [mem_tile]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- After region 1 its output array is h · w of the two arrays it read. -/
theorem value (V : (c : Dev nD) → (b : Ref sig .tc) → Buf (Elt Ideal) ((c : Thread nD τ).loc b)) (c : Dev nD) :
    (dat1 (F := Ideal) V c).arrAt 2 cfg1.N = Spec.dense (V c main_v46) (V c main_arg5) :=
  (dat1 (F := Ideal) V c).arrAt_eq_of_cover 2 (Spec.dense (V c main_v46) (V c main_arg5)) (fun t _ => flushed_eq V c t) covered

end Cert.KernelIdeal.Region1

end
-- ==== Proof.Consts.lean ====
/-
  The float literals the two programs name, as extended reals: the words of 0.0 and 1.0.
-/
import Idealize.ShloMosaic.PureOps.Ideal

noncomputable section

namespace Cert.Consts

open Idealize.ShloMosaic

/-- The word of 0.0 denotes 0: exponent field 0 and fraction field 0, so the subnormal branch gives
    (+1) · 0 · 2^(−149) = 0. -/
theorem ofBits_zero : Ideal.ofBits .f32 0x00000000#32 = 0 := by
  show Ideal.ieee 8 23 (0x00000000#32) = 0
  have hex : ((0x00000000#32).extractLsb' 23 8).toNat = 0 := by decide
  have hfr : ((0x00000000#32).extractLsb' 0 23).toNat = 0 := by decide
  simp only [Ideal.ieee, hex, hfr]
  norm_num

/-- The word of 1.0 denotes 1: sign bit clear, exponent field 127 (the bias), fraction field 0, so the normal
    branch gives (+1) · 2^23 · 2^(127 − 127 − 23) = 1. -/
theorem ofBits_one : Ideal.ofBits .f32 0x3F800000#32 = 1 := by
  show Ideal.ieee 8 23 (0x3F800000#32) = 1
  have hs : ((0x3F800000#32).extractLsb' (8 + 23) 1 == 1#1) = false := by decide
  have hex : ((0x3F800000#32).extractLsb' 23 8).toNat = 127 := by decide
  have hfr : ((0x3F800000#32).extractLsb' 0 23).toNat = 0 := by decide
  simp only [Ideal.ieee, hs, hex, hfr]
  norm_num

end Cert.Consts

end
-- ==== Proof.Region2.lean ====
/-
  Region 2 of the kernel program (bias, max(·, 0) and the pooled sums accumulated over ten node tiles into one 64 × 128 block): what its output array holds when the region ends.

  The block is carried from tile to tile and written back once. Tile 0 stores zeros, reads them back and adds its
  tile's product; tiles 1 … 9 add theirs to what the tile before left. The product contracts the tile's 5000 rows:
  entry (g, f) is the sum over rows r of [label r = g] · max(a(r, f) + b(0, f), 0), the row-validity test being true at
  every row. So after tile n the block holds the contributions of the nodes below 5000 · (n + 1) (induction on n), and
  the array, written from the block after tile 9, holds the sum over all 50000 nodes.
-/
import proofs.«403521_j14817637171423_2_alg».proof.Proof.Gen.KernelIdeal.Frame
import proofs.«403521_j14817637171423_2_alg».proof.Proof.Spec
import proofs.«403521_j14817637171423_2_alg».proof.Proof.Consts
import Idealize.ShloMosaic.Lib.Pipeline.Value
import Idealize.ShloMosaic.Lib.ValueIdx
import Idealize.ShloMosaic.Lib.StableHlo.Predicate
import Idealize.ShloMosaic.PureOps.Ideal.Laws
import Idealize.ShloMosaic.Lib.Tactic

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## The tile product's operand indices -/

theorem lhs_pool_0 (j : S64x128.Idx) (q : dot_S5000x64_S5000x128_S64x128_0_0_1_1_n_n.contr.Idx) :
    (dot_S5000x64_S5000x128_S64x128_0_0_1_1_n_n.lhsIdx j q 0).val = (q ⟨0, by decide⟩).val :=
  dot_S5000x64_S5000x128_S64x128_0_0_1_1_n_n.lhsIdx_val_of_single rfl j q
theorem lhs_pool_1 (j : S64x128.Idx) (q : dot_S5000x64_S5000x128_S64x128_0_0_1_1_n_n.contr.Idx) :
    (dot_S5000x64_S5000x128_S64x128_0_0_1_1_n_n.lhsIdx j q 1).val = (j 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_pool_0 (j : S64x128.Idx) (q : dot_S5000x64_S5000x128_S64x128_0_0_1_1_n_n.contr.Idx) :
    (dot_S5000x64_S5000x128_S64x128_0_0_1_1_n_n.rhsIdx j q 0).val = (q ⟨0, by decide⟩).val :=
  dot_S5000x64_S5000x128_S64x128_0_0_1_1_n_n.rhsIdx_val_of_single rfl j q
theorem rhs_pool_1 (j : S64x128.Idx) (q : dot_S5000x64_S5000x128_S64x128_0_0_1_1_n_n.contr.Idx) :
    (dot_S5000x64_S5000x128_S64x128_0_0_1_1_n_n.rhsIdx j q 1).val = (j 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The tile product into the zero block, at (g, f): the sum over the tile's rows r of L(r, g) · R(r, f). -/
theorem pool_matmul_apply (L : FVec Ideal S5000x64 .bf16) (R : FVec Ideal S5000x128 .bf16) (g : Fin 64) (f : Fin 128) :
    matmul dot_S5000x64_S5000x128_S64x128_0_0_1_1_n_n none L R (constant S64x128 .f32 0x00000000#32) (ix2 g f)
      = ∑ r : Fin 5000, L (ix2 r g) * R (ix2 r f) := by
  simp only [matmul]
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g f) ((contrEquiv1 dot_S5000x64_S5000x128_S64x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x64_S5000x128_S64x128_0_0_1_1_n_n.rhsIdx (ix2 g f) ((contrEquiv1 dot_S5000x64_S5000x128_S64x128_0_0_1_1_n_n 5000 rfl rfl).symm k) = ix2 k f := funext fun a => Fin.ext (by
    match a with
    | ⟨0, _⟩ => exact (rhs_pool_0 _ _).trans hk
    | ⟨1, _⟩ => exact rhs_pool_1 _ _)
  rw [el, er]

/-! ## The two factors of the tile product, at an index -/

/-- The row-validity test holds at every row of every tile: 5000 · t + r is below 50000 for t below 10 and r below
    5000, and both words are below 2^31, so the signed comparison is the comparison of the naturals. -/
theorem row_valid (t r : Nat) (ht : t < 10) (hr : r < 5000) :
    IntOp.cmpi .slt (IntOp.addi (Scalar.muli (BitVec.ofNat 32 t) 5000#32) (BitVec.ofNat 32 r)) 50000#32 = 1#1 := by
  have h : (IntOp.addi (Scalar.muli (BitVec.ofNat 32 t) 5000#32) (BitVec.ofNat 32 r)).toNat = t * 5000 + r := by
    show (BitVec.ofNat 32 t * BitVec.ofNat 32 5000 + BitVec.ofNat 32 r).toNat = _
    rw [BitVec.toNat_add, BitVec.toNat_mul, BitVec.toNat_ofNat, BitVec.toNat_ofNat, BitVec.toNat_ofNat]
    omega
  have h5 : (50000#32).toNat = 50000 := by decide
  exact (StableHlo.Predicate.slt_iff_toNat (by rw [h]; omega) (by rw [h5]; omega)).mpr (by rw [h, h5]; omega)

/-- The one-hot factor at (r, g): 1 when row r's label word is g, else 0. -/
theorem onehot_apply (i : grid2.Coords) (hi : (i 0).val < 10) (x2 : Vec Ideal S5000x1 .i32) (r : Fin 5000) (g : Fin 64) :
    (truncf .bf16
          (select
            (andi
              (cmpi CmpIPredicate.eq
                (broadcastTo S5000x64 (shapeCast S5000x1 x2 shapeCasts_S5000x1_S5000x1) broadcasts_S5000x1_S5000x64)
                (iota Kind.tc S5000x64 32 [1] iota_S5000x64_d1_w32))
              (cmpi CmpIPredicate.slt
                (addi (broadcast S5000x64 (Scalar.muli (BitVec.ofNat 32 (i 0).val) 5000#32))
                  (iota Kind.tc S5000x64 32 [0] iota_S5000x64_d0_w32))
                (broadcast S5000x64 50000#32)))
            (broadcast S5000x64 (FloatOps.ofBits (F := Ideal) FTy.f32 0x3F800000#32))
            (broadcast S5000x64 (FloatOps.ofBits (F := Ideal) FTy.f32 0x00000000#32)))
          bitsLt_bf16_f32 : FVec Ideal S5000x64 .bf16) (ix2 r g)
      = if x2 (ix2 r 0) = BitVec.ofNat 32 g.val then (1 : EReal) else 0 := by
  have e1 : broadcastTo S5000x64 (shapeCast S5000x1 x2 shapeCasts_S5000x1_S5000x1) broadcasts_S5000x1_S5000x64 (ix2 r g) = x2 (ix2 r 0) := by
    rw [broadcastTo_apply _ _ (ix2 r g) (ix2 r 0) (fun a => by match a with | ⟨0, _⟩ => rfl | ⟨1, _⟩ => rfl), shapeCast_self]
  have e2 : iota Kind.tc S5000x64 32 [1] iota_S5000x64_d1_w32 (ix2 r g) = BitVec.ofNat 32 g.val := iota_single_apply _ _ _ _ _ _
  have e3 : iota Kind.tc S5000x64 32 [0] iota_S5000x64_d0_w32 (ix2 r g) = BitVec.ofNat 32 r.val := iota_single_apply _ _ _ _ _ _
  show Scalar.select (IntOp.andi (IntOp.cmpi .eq (broadcastTo S5000x64 (shapeCast S5000x1 x2 shapeCasts_S5000x1_S5000x1) broadcasts_S5000x1_S5000x64 (ix2 r g)) (iota Kind.tc S5000x64 32 [1] iota_S5000x64_d1_w32 (ix2 r g)))
      (IntOp.cmpi .slt (IntOp.addi (Scalar.muli (BitVec.ofNat 32 (i 0).val) 5000#32) (iota Kind.tc S5000x64 32 [0] iota_S5000x64_d0_w32 (ix2 r g))) 50000#32))
      (Ideal.ofBits .f32 0x3F800000#32) (Ideal.ofBits .f32 0x00000000#32) = _
  rw [e1, e2, e3, row_valid (i 0).val r.val hi r.isLt]
  by_cases h : x2 (ix2 r 0) = BitVec.ofNat 32 g.val
  · rw [if_pos h, IntOp.andi_eq_one.mpr ⟨StableHlo.Predicate.cmpi_eq_iff.mpr h, rfl⟩, select_one, Cert.Consts.ofBits_one]
  · rw [if_neg h, eq_zero_of_ne_one (fun hh => h (StableHlo.Predicate.cmpi_eq_iff.mp (IntOp.andi_eq_one.mp hh).1)), select_zero, Cert.Consts.ofBits_zero]

/-- The rectified factor at (r, f): max(a(r, f) + b(0, f), 0). -/
theorem relu_apply (x0 : Vec Ideal S5000x128 .f32) (x1 : Vec Ideal S1x128 .f32) (r : Fin 5000) (f : Fin 128) :
    (truncf .bf16
          (maximumf
            (addf (shapeCast S5000x128 x0 shapeCasts_S5000x128_S5000x128)
              (broadcastTo S5000x128 (shapeCast S1x128 x1 shapeCasts_S1x128_S1x128) broadcasts_S1x128_S5000x128))
            (broadcast S5000x128 (FloatOps.ofBits (F := Ideal) FTy.f32 0x00000000#32)))
          bitsLt_bf16_f32 : FVec Ideal S5000x128 .bf16) (ix2 r f)
      = max (x0 (ix2 r f) + x1 (ix2 0 f)) 0 := by
  show max (shapeCast S5000x128 x0 shapeCasts_S5000x128_S5000x128 (ix2 r f)
      + broadcastTo S5000x128 (shapeCast S1x128 x1 shapeCasts_S1x128_S1x128) broadcasts_S1x128_S5000x128 (ix2 r f)) (Ideal.ofBits .f32 0x00000000#32) = _
  rw [shapeCast_self, broadcastTo_apply _ _ (ix2 r f) (ix2 0 f) (fun a => by match a with | ⟨0, _⟩ => rfl | ⟨1, _⟩ => rfl), shapeCast_self,
    Cert.Consts.ofBits_zero]

/-- The accumulating store's payload at (g, f): what the block held there, plus the sum over the tile's rows r of
    [label r = g] · max(a(r, f) + b(0, f), 0). -/
theorem pay2_apply (i : grid2.Coords) (hi : (i 0).val < 10) (x0 : Vec Ideal S5000x128 .f32) (x1 : Vec Ideal S1x128 .f32)
    (x2 : Vec Ideal S5000x1 .i32) (acc : Vec Ideal S64x128 .f32) (g : Fin 64) (f : Fin 128) :
    k2_pay2 (F := Ideal) i x0 x1 x2 acc (ix2 g f)
      = acc (ix2 g f) + ∑ r : Fin 5000, (if x2 (ix2 r 0) = BitVec.ofNat 32 g.val then (1 : EReal) else 0) * max (x0 (ix2 r f) + x1 (ix2 0 f)) 0 := by
  unfold k2_pay2
  dsimp only
  refine (addf_apply _ _ _).trans ?_
  refine congrArg₂ (· + ·) (congrFun (shapeCast_self acc shapeCasts_S64x128_S64x128) (ix2 g f)) ?_
  refine (pool_matmul_apply _ _ g f).trans ?_
  refine Finset.sum_congr rfl fun r _ => ?_
  exact congrArg₂ (· * ·) (onehot_apply i hi x2 r g) (relu_apply x0 x1 r f)

/-- The reset store's payload is the zero block. -/
theorem pay1_apply (j : S64x128.Idx) : k2_pay1 (F := Ideal) j = 0 := by
  show Ideal.ofBits .f32 0x00000000#32 = 0
  exact Cert.Consts.ofBits_zero

/-! ## What each control case leaves in the block, as the payloads of its stores -/

section Pieces
variable {F : FTy → Type} [FloatOps F]

theorem hz : (![0, 0] : Fin 2 → Nat) = fun _ => 0 := funext fun a => by fin_cases a <;> rfl

/-- Tiles 1 … 9: one store covers the block; its payload reads the three input blocks and what the block held. -/
theorem pieceB (c : Dev nD) (i : grid2.Coords) (a1 : Memref sig .tc .vmem S5000x128 .f32) (h1 : a1.IsWhole)
    (a2 : Memref sig .tc .vmem S1x128 .f32) (h2 : a2.IsWhole) (a3 : Memref sig .tc .vmem S5000x1 .i32) (h3 : a3.IsWhole)
    (a4 : Memref sig .tc .vmem S64x128 .f32) (h4 : a4.IsWhole) (hc : ¬cond2_0 i)
    (x0 : Vec F S5000x128 .f32) (x1 : Vec F S1x128 .f32) (x2 : Vec F S5000x1 .i32) (xo : Vec F S64x128 .f32) :
    out2_B_3 c i a1 h1 a2 h2 a3 h3 a4 h4 hc x0 x1 x2 xo = k2_pay2 i x0 x1 x2 xo := by
  unfold out2_B_3
  rw [View.read_writes_eq_canon _ _ _ (cover2_B_3 c i a1 h1 a2 h2 a3 h3 a4 h4 hc x0 x1 x2 xo)]
  unfold kernelRun2_B
  dsimp only
  sl_unfold_words
  rw [View.canon_unit_zero hz]
  simp only [View.readAt_eq_ld, h1.read_unread, h2.read_unread, h3.read_unread, h4.read_unread,
    View.ld_unit_zero (S := S5000x128) hz, View.ld_unit_zero (S := S1x128) hz, View.ld_unit_zero (S := S5000x1) hz,
    View.ld_unit_zero (S := S64x128) hz]

/-- Tile 0: the zero block is stored first and read back, so the covering store's payload accumulates onto zeros. -/
theorem pieceA (c : Dev nD) (i : grid2.Coords) (a1 : Memref sig .tc .vmem S5000x128 .f32) (h1 : a1.IsWhole)
    (a2 : Memref sig .tc .vmem S1x128 .f32) (h2 : a2.IsWhole) (a3 : Memref sig .tc .vmem S5000x1 .i32) (h3 : a3.IsWhole)
    (a4 : Memref sig .tc .vmem S64x128 .f32) (h4 : a4.IsWhole) (hc : cond2_0 i)
    (x0 : Vec F S5000x128 .f32) (x1 : Vec F S1x128 .f32) (x2 : Vec F S5000x1 .i32) :
    out2_A_3 c i a1 h1 a2 h2 a3 h3 a4 h4 hc x0 x1 x2 = k2_pay2 i x0 x1 x2 (k2_pay1 (F := F)) := by
  unfold out2_A_3
  rw [View.read_writes_eq_canon _ _ _ (cover2_A_3 c i a1 h1 a2 h2 a3 h3 a4 h4 hc x0 x1 x2)]
  unfold kernelRun2_A
  dsimp only
  sl_unfold_words
  rw [View.canon_cons_unit_zero (S := S64x128) hz]
  simp only [View.readAt_eq_ld, h1.read_unread, h2.read_unread, h3.read_unread, View.readCov_unit_zero (S := S64x128) _ hz,
    View.ld_unit_zero (S := S5000x128) hz, View.ld_unit_zero (S := S1x128) hz, View.ld_unit_zero (S := S5000x1) hz,
    View.ld_unit_zero (S := S64x128) hz]

end Pieces

/-! ## The arrays and the windows' blocks, at their literal types -/

variable (V : (c : Dev nD) → (b : Ref sig .tc) → Buf (Elt Ideal) ((c : Thread nD τ).loc b))

/-- The node rows a (50000 × 128), the bias row b (1 × 128) and the label words (50000 × 1) as the region finds them. -/
abbrev aArr (c : Dev nD) : Spec.Arr 50000 128 := V c main_v62
abbrev bArr (c : Dev nD) : Spec.Arr 1 128 := V c main_v64
abbrev lArr (c : Dev nD) : (⟨2, ![50000, 1]⟩ : Shape).Idx → BitVec 32 := V c main_v63
/-- Tile t's blocks of them. -/
abbrev aBlk (c : Dev nD) (t : Fin cfg2.N) : Vec Ideal S5000x128 .f32 := iblk2 V c 0 t
abbrev bBlk (c : Dev nD) (t : Fin cfg2.N) : Vec Ideal S1x128 .f32 := iblk2 V c 1 t
abbrev lBlk (c : Dev nD) (t : Fin cfg2.N) : Vec Ideal S5000x1 .i32 := iblk2 V c 2 t

/-- The index maps, decided over the ten tiles: a and the labels move down by one block of rows per tile, b stays. -/
theorem idx_facts : ∀ t : Fin cfg2.N, win2_0.index t 0 = t.val ∧ win2_0.index t 1 = 0 ∧ win2_1.index t 0 = 0 ∧ win2_1.index t 1 = 0
    ∧ win2_2.index t 0 = t.val ∧ win2_2.index t 1 = 0 :=
  (by decide +kernel : ∀ t : Fin grid2.N, win2_0.index t 0 = t.val ∧ win2_0.index t 1 = 0 ∧ win2_1.index t 0 = 0 ∧ win2_1.index t 1 = 0
    ∧ win2_2.index t 0 = t.val ∧ win2_2.index t 1 = 0)

/-- Row r of tile t's block of a is row 5000 · t + r of a. -/
theorem aBlk_apply (c : Dev nD) (t : Fin cfg2.N) (r : Fin 5000) (f : Fin 128) (h : 5000 * t.val + r.val < 50000) :
    aBlk V c t (ix2 r f) = aArr V c (ix2 ⟨5000 * t.val + r.val, h⟩ f) := by
  show iblk2 V c 0 t (ix2 r f) = _
  unfold iblk2
  rw [View.read_apply]
  show V c main_v62 _ = V c main_v62 _
  congr 1
  funext a
  apply Fin.ext
  match a with
  | ⟨0, _⟩ => show win2_0.index t 0 * 5000 + 1 * r.val = 5000 * t.val + r.val; rw [(idx_facts t).1]; omega
  | ⟨1, _⟩ => show win2_0.index t 1 * 128 + 1 * f.val = f.val; rw [(idx_facts t).2.1]; omega

/-- Every tile's block of b is b. -/
theorem bBlk_apply (c : Dev nD) (t : Fin cfg2.N) (f : Fin 128) :
    bBlk V c t (ix2 0 f) = bArr V c (ix2 0 f) := by
  show iblk2 V c 1 t (ix2 0 f) = _
  unfold iblk2
  rw [View.read_apply]
  show V c main_v64 _ = V c main_v64 _
  congr 1
  funext a
  apply Fin.ext
  match a with
  | ⟨0, _⟩ => show win2_1.index t 0 * 1 + 1 * 0 = 0; rw [(idx_facts t).2.2.1]
  | ⟨1, _⟩ => show win2_1.index t 1 * 128 + 1 * f.val = f.val; rw [(idx_facts t).2.2.2.1]; omega

/-- Row r of tile t's block of labels is label 5000 · t + r. -/
theorem lBlk_apply (c : Dev nD) (t : Fin cfg2.N) (r : Fin 5000) (h : 5000 * t.val + r.val < 50000) :
    lBlk V c t (ix2 r 0) = lArr V c (ix2 ⟨5000 * t.val + r.val, h⟩ 0) := by
  show iblk2 V c 2 t (ix2 r 0) = _
  unfold iblk2
  rw [View.read_apply]
  show V c main_v63 _ = V c main_v63 _
  congr 1
  funext a
  apply Fin.ext
  match a with
  | ⟨0, _⟩ => show win2_2.index t 0 * 5000 + 1 * r.val = 5000 * t.val + r.val; rw [(idx_facts t).2.2.2.2.1]; omega
  | ⟨1, _⟩ => show win2_2.index t 1 * 1 + 1 * 0 = 0; rw [(idx_facts t).2.2.2.2.2]

/-! ## The running sums -/

/-- Node i's contribution to entry (g, f): [label i = g] · max(a(i, f) + b(0, f), 0); nothing past the last node. -/
def nodeTerm (c : Dev nD) (g : Fin 64) (f : Fin 128) (i : ℕ) : EReal :=
  if h : i < 50000 then
    (if lArr V c (ix2 ⟨i, h⟩ 0) = BitVec.ofNat 32 g.val then (1 : EReal) else 0) * max (aArr V c (ix2 ⟨i, h⟩ f) + bArr V c (ix2 0 f)) 0
  else 0

/-- The sum a tile's product adds at (g, f) is the contributions of the tile's 5000 nodes. -/
theorem tile_sum (c : Dev nD) (t : Fin cfg2.N) (g : Fin 64) (f : Fin 128) :
    (∑ r : Fin 5000, (if lBlk V c t (ix2 r 0) = BitVec.ofNat 32 g.val then (1 : EReal) else 0) * max (aBlk V c t (ix2 r f) + bBlk V c t (ix2 0 f)) 0)
      = ∑ x ∈ Finset.range 5000, nodeTerm V c g f (5000 * t.val + x) := by
  have hN : t.val < 10 := lt_of_lt_of_eq t.isLt N_2
  rw [Finset.sum_range]
  refine Finset.sum_congr rfl fun r _ => ?_
  have h : 5000 * t.val + r.val < 50000 := by have := r.isLt; omega
  rw [nodeTerm, dif_pos h, aBlk_apply V c t r f h, bBlk_apply V c t f, lBlk_apply V c t r h]

theorem coord_lt (t : Fin cfg2.N) : ((grid2.coords t) 0).val < 10 := (grid2.coords t 0).isLt

/-- After tile n the block holds, at (g, f), the contributions of the nodes below 5000 · (n + 1). -/
theorem outsAt_eq (c : Dev nD) : ∀ (n : ℕ) (hn : n < cfg2.N) (g : Fin 64) (f : Fin 128),
    (outsAt2 V c n hn : Vec Ideal S64x128 .f32) (ix2 g f) = ∑ i ∈ Finset.range (5000 * (n + 1)), nodeTerm V c g f i
  | 0, hn, g, f => by
    have h0 : (⟨0, hn⟩ : Fin cfg2.N).val % 10 = 0 := rfl
    rw [outsAt2_A V c ⟨0, hn⟩ h0]
    refine (congrFun (pieceA (F := Ideal) c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) (ms2_3 ⟨0, hn⟩) (hs2_3 ⟨0, hn⟩) ((hcond2_0 ⟨0, hn⟩).mpr h0)
      (aBlk V c ⟨0, hn⟩) (bBlk V c ⟨0, hn⟩) (lBlk V c ⟨0, hn⟩)) (ix2 g f)).trans ?_
    rw [pay2_apply (grid2.coords ⟨0, hn⟩) (coord_lt ⟨0, hn⟩) (aBlk V c ⟨0, hn⟩) (bBlk V c ⟨0, hn⟩) (lBlk V c ⟨0, hn⟩) _ g f,
      pay1_apply, zero_add, tile_sum V c ⟨0, hn⟩ g f]
    refine Finset.sum_congr rfl fun x _ => ?_
    show nodeTerm V c g f (5000 * 0 + x) = _
    rw [Nat.mul_zero, Nat.zero_add]
  | n + 1, hn, g, f => by
    have hN : n + 1 < 10 := lt_of_lt_of_eq hn N_2
    have hB : ¬(⟨n + 1, hn⟩ : Fin cfg2.N).val % 10 = 0 := by dsimp only; omega
    rw [outsAt2_B V c ⟨n + 1, hn⟩ hB]
    refine (congrFun (pieceB (F := Ideal) c (grid2.coords ⟨n + 1, hn⟩) (ms2_0 ⟨n + 1, hn⟩) (hs2_0 ⟨n + 1, hn⟩) (ms2_1 ⟨n + 1, hn⟩) (hs2_1 ⟨n + 1, hn⟩)
      (ms2_2 ⟨n + 1, hn⟩) (hs2_2 ⟨n + 1, hn⟩) (ms2_3 ⟨n + 1, hn⟩) (hs2_3 ⟨n + 1, hn⟩) (fun h => hB ((hcond2_0 ⟨n + 1, hn⟩).mp h))
      (aBlk V c ⟨n + 1, hn⟩) (bBlk V c ⟨n + 1, hn⟩) (lBlk V c ⟨n + 1, hn⟩) (outsAt2 V c n (Nat.lt_of_succ_lt hn))) (ix2 g f)).trans ?_
    rw [pay2_apply (grid2.coords ⟨n + 1, hn⟩) (coord_lt ⟨n + 1, hn⟩) (aBlk V c ⟨n + 1, hn⟩) (bBlk V c ⟨n + 1, hn⟩) (lBlk V c ⟨n + 1, hn⟩)
      (outsAt2 V c n (Nat.lt_of_succ_lt hn)) g f, outsAt_eq c n (Nat.lt_of_succ_lt hn) g f, tile_sum V c ⟨n + 1, hn⟩ g f,
      show 5000 * (n + 1 + 1) = 5000 * (n + 1) + 5000 from by omega, Finset.sum_range_add]

/-! ## The array -/

/-- The sum of every node's contribution is the pooled entry. -/
theorem sum_all (c : Dev nD) (g : Fin 64) (f : Fin 128) :
    ∑ i ∈ Finset.range 50000, nodeTerm V c g f i = Spec.pooled (aArr V c) (bArr V c) (lArr V c) (ix2 g f) := by
  rw [Finset.sum_range]
  refine Finset.sum_congr rfl fun i _ => ?_
  rw [nodeTerm, dif_pos i.isLt]

/-- The output's one block index is (0, 0): entry (g, f) of the block written back after the last tile is entry (g, f)
    of the array. -/
theorem read_last (G : Spec.Arr 64 128) (g : Fin 64) (f : Fin 128) :
    (((cfg2.win 3).blk t2_9).view.read (Elt Ideal) G : S64x128.Idx → EReal) (ix2 g f) = G (ix2 g f) := by
  rw [View.read_apply]
  show G _ = G _
  congr 1
  funext a
  apply Fin.ext
  match a with
  | ⟨0, _⟩ => show win2_3.index t2_9 0 * 64 + 1 * g.val = g.val
              rw [show win2_3.index t2_9 0 = 0 from by decide +kernel]; omega
  | ⟨1, _⟩ => show win2_3.index t2_9 1 * 128 + 1 * f.val = f.val
              rw [show win2_3.index t2_9 1 = 0 from by decide +kernel]; omega

/-- The block is written back once, after the last tile, and by then it holds the pooled sums. -/
theorem flushed_eq (c : Dev nD) (t : Fin cfg2.N) (hf : (cfg2.win 3).flush t = true) :
    (dat2 V c).flushed 3 t = ((cfg2.win 3).blk t).view.read (Elt Ideal) (Spec.pooled (aArr V c) (bArr V c) (lArr V c)) := by
  have hN : cfg2.N = 10 := N_2
  have h9 : t.val = 9 := by have := (flush2_3 t).mp hf; have := t.isLt; omega
  obtain rfl : t = t2_9 := Fin.ext h9
  show (cfg2.win 3).cut (grid2.coords t2_9) ((dat2 V c).after 3 t2_9) = _
  rw [after2_3]
  refine funext fun (y : S64x128.Idx) => ?_
  obtain ⟨g, f, rfl⟩ : ∃ (g : Fin 64) (f : Fin 128), y = ix2 g f := ⟨y 0, y 1, eq_ix2 y⟩
  refine ((outsAt_eq V c t2_9.val t2_9.isLt g f).trans ?_).trans (read_last (Spec.pooled (aArr V c) (bArr V c) (lArr V c)) g f).symm
  rw [show 5000 * (t2_9.val + 1) = 50000 from rfl]
  exact sum_all V c g f

/-- After region 2 its output array holds, at (g, f), the sum over the nodes labelled g of max(a(i, f) + b(0, f), 0). -/
theorem value (V : (c : Dev nD) → (b : Ref sig .tc) → Buf (Elt Ideal) ((c : Thread nD τ).loc b)) (c : Dev nD) :
    (dat2 (F := Ideal) V c).arrAt 3 cfg2.N = Spec.pooled (V c main_v62) (V c main_v64) (V c main_v63) :=
  (dat2 V c).arrAt_eq_of_cover 3 (Spec.pooled (aArr V c) (bArr V c) (lArr V c)) (flushed_eq V c) fun i =>
    ⟨t2_9, (flush2_3 t2_9).mpr rfl, by
      show i ∈ ((View.whole main_v65).slice (win2_3.rect t2_9)).set
      rw [View.set_slice_whole, Rect.mem_set_unit]
      intro a
      have hoff : win2_3.index t2_9 a * win2_3.size a = 0 := by fin_cases a <;> decide +kernel
      have hsz : win2_3.xsize (grid2.coords t2_9) a = main_v65.ty.shape.size a := by fin_cases a <;> decide +kernel
      show win2_3.index t2_9 a * win2_3.size a ≤ (i a : Nat) ∧ (i a : Nat) < win2_3.index t2_9 a * win2_3.size a + win2_3.xsize (grid2.coords t2_9) a
      rw [hoff, hsz]
      exact ⟨Nat.zero_le _, by rw [Nat.zero_add]; exact (i a).isLt⟩⟩

end Cert.KernelIdeal.Region2

end
-- ==== Proof.Region3.lean ====
/-
  Region 3 of the kernel program (the per-graph mean and the classifier head, one grid point): what its output array holds when the region ends.

  The body computes, on the whole arrays s (64 × 128), n (64 × 1), wt (128 × 2), bl (1 × 2), the product of
  s / max(n, 1) (each row of s divided by that row's count, cut below at 1) with wt, plus the row bl. First the
  body's value is read at an index (g, c): the sum over f of (s(g, f) / max(n(g, 0), 1)) · wt(f, c), plus bl(0, c).
  Then, the region having one grid point whose blocks are the whole arrays, the block written back is the whole
  output array.
-/
import proofs.«403521_j14817637171423_2_alg».proof.Proof.Gen.KernelIdeal.Frame
import proofs.«403521_j14817637171423_2_alg».proof.Proof.Spec
import proofs.«403521_j14817637171423_2_alg».proof.Proof.Consts
import Idealize.ShloMosaic.Lib.Pipeline.Value
import Idealize.ShloMosaic.PureOps.Ideal.Laws

noncomputable section

namespace Cert.KernelIdeal.Region3

open Cert.KernelIdeal Cert.KernelIdeal.Gen Idealize.ShloMosaic Idealize.ShloMosaic.TcCoe Idealize.SL.Sem
open Idealize.ShloMosaic.ValueIdx

/-! ## The matrix product's operand indices

For the product of a 64 × 128 array with a 128 × 2 array, contracted over the left operand's columns and the right
operand's rows, the left operand is read at (row of the output, contraction position) and the right operand at
(contraction position, column of the output). -/

/-- The left operand's row is the output's row. -/
theorem dot_lhs_row (i : S64x2.Idx) (k : dot_S64x128_S128x2_S64x2_1_0_0_1_n_n.contr.Idx) :
    (dot_S64x128_S128x2_S64x2_1_0_0_1_n_n.lhsIdx i k 0).val = (i 0).val := by
  unfold DotDims.lhsIdx
  rw [dif_neg (show ¬(0 : Fin S64x128.rank) ∈ dot_S64x128_S128x2_S64x2_1_0_0_1_n_n.lhsBatch by decide), dif_pos (show (0 : Fin S64x128.rank) ∈ dot_S64x128_S128x2_S64x2_1_0_0_1_n_n.lhsNonContracting by decide)]
  rfl

/-- The left operand's column is the contraction position. -/
theorem dot_lhs_col (i : S64x2.Idx) (k : dot_S64x128_S128x2_S64x2_1_0_0_1_n_n.contr.Idx) :
    (dot_S64x128_S128x2_S64x2_1_0_0_1_n_n.lhsIdx i k 1).val = (k ⟨0, by decide⟩).val :=
  dot_S64x128_S128x2_S64x2_1_0_0_1_n_n.lhsIdx_val_of_single rfl i k

/-- The right operand's row is the contraction position. -/
theorem dot_rhs_row (i : S64x2.Idx) (k : dot_S64x128_S128x2_S64x2_1_0_0_1_n_n.contr.Idx) :
    (dot_S64x128_S128x2_S64x2_1_0_0_1_n_n.rhsIdx i k 0).val = (k ⟨0, by decide⟩).val :=
  dot_S64x128_S128x2_S64x2_1_0_0_1_n_n.rhsIdx_val_of_single rfl i k

/-- The right operand's column is the output's column. -/
theorem dot_rhs_col (i : S64x2.Idx) (k : dot_S64x128_S128x2_S64x2_1_0_0_1_n_n.contr.Idx) :
    (dot_S64x128_S128x2_S64x2_1_0_0_1_n_n.rhsIdx i k 1).val = (i 1).val := by
  unfold DotDims.rhsIdx
  rw [dif_neg (show ¬(1 : Fin S128x2.rank) ∈ dot_S64x128_S128x2_S64x2_1_0_0_1_n_n.rhsBatch by decide), dif_pos (show (1 : Fin S128x2.rank) ∈ dot_S64x128_S128x2_S64x2_1_0_0_1_n_n.rhsNonContracting by decide)]
  rfl

/-! ## The body's value at an index -/

/-- The word 0x3F800000 is the float 1. -/
theorem one_word : (FloatOps.ofBits FTy.f32 0x3F800000#32 : Idealize.ShloMosaic.Ideal .f32) = 1 := Cert.Consts.ofBits_one

/-- Entry (p, q) of the body's value on blocks x0 (sums), x1 (counts), x2 (weights), x3 (bias): the reshapes to
    the same shape and the changes of float format are the identity, the product into the zero array is the sum
    over the contraction position f of the operands' products, the count max(x1(p, 0), 1) is spread along row p,
    and the bias x3(0, q) along column q. -/
theorem payload_apply (x0 : Vec Ideal S64x128 .f32) (x1 : Vec Ideal S64x1 .f32) (x2 : Vec Ideal S128x2 .f32) (x3 : Vec Ideal S1x2 .f32)
    (p : Fin 64) (q : Fin 2) :
    k3_pay1 x0 x1 x2 x3 (ix2 p q)
      = (∑ f : Fin 128, Ideal.div (x0 (ix2 p f)) (max (x1 (ix2 p 0)) 1) * x2 (ix2 f q)) + x3 (ix2 0 q) := by
  unfold k3_pay1
  simp only [shapeCast_self, matmul]
  rw [addf_apply, Ideal.matmul_constant_zero_apply,
    ← Equiv.sum_comp (contrEquiv1 dot_S64x128_S128x2_S64x2_1_0_0_1_n_n 128 rfl rfl).symm]
  congr 1
  · refine Finset.sum_congr rfl fun k _ => ?_
    have hk := contrEquiv1_symm_val dot_S64x128_S128x2_S64x2_1_0_0_1_n_n 128 rfl rfl k
    have el : dot_S64x128_S128x2_S64x2_1_0_0_1_n_n.lhsIdx (ix2 p q) ((contrEquiv1 dot_S64x128_S128x2_S64x2_1_0_0_1_n_n 128 rfl rfl).symm k) = ix2 p k := funext fun a => Fin.ext (by
      match a with
      | ⟨0, _⟩ => exact dot_lhs_row _ _
      | ⟨1, _⟩ => exact (dot_lhs_col _ _).trans hk)
    have er : dot_S64x128_S128x2_S64x2_1_0_0_1_n_n.rhsIdx (ix2 p q) ((contrEquiv1 dot_S64x128_S128x2_S64x2_1_0_0_1_n_n 128 rfl rfl).symm k) = ix2 k q := funext fun a => Fin.ext (by
      match a with
      | ⟨0, _⟩ => exact (dot_rhs_row _ _).trans hk
      | ⟨1, _⟩ => exact dot_rhs_col _ _)
    rw [el, er, truncf_apply, truncf_apply, divf_apply,
      broadcastTo_apply _ broadcasts_S64x1_S64x128 (ix2 p k) (ix2 p 0) (fun a => match a with
        | ⟨0, _⟩ => rfl
        | ⟨1, _⟩ => rfl),
      maximumf_apply, broadcast_apply, one_word]
  · exact broadcastTo_apply _ broadcasts_S1x2_S64x2 (ix2 p q) (ix2 0 q) (fun a => match a with
      | ⟨0, _⟩ => rfl
      | ⟨1, _⟩ => rfl)

/-- The body's value, as a function of the four blocks, is the head of the four blocks. -/
theorem payload_eq_head (x0 : Vec Ideal S64x128 .f32) (x1 : Vec Ideal S64x1 .f32) (x2 : Vec Ideal S128x2 .f32) (x3 : Vec Ideal S1x2 .f32) :
    k3_pay1 x0 x1 x2 x3 = Spec.head x0 x1 x2 x3 := by
  funext j
  obtain ⟨p, q, rfl⟩ : ∃ (p : Fin 64) (q : Fin 2), j = ix2 p q := ⟨j 0, j 1, eq_ix2 j⟩
  exact payload_apply x0 x1 x2 x3 p q

/-! ## From the one block to the array -/

/-- The origin (0, 0), as the constant function 0. -/
theorem origin : (![0, 0] : Fin 2 → Nat) = fun _ => 0 := funext fun a => by fin_cases a <;> rfl

/-- With one grid point every window's block index is 0 on both axes. -/
theorem block_index_zero : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

section Blocks

variable (V : (c : Dev nD) → (b : Ref sig .tc) → Buf (Elt Ideal) ((c : Thread nD τ).loc b))

/-- Window 0's one block is the whole array of sums s: entry j of the block is entry 0 · 64 + j, 0 · 128 + j of s. -/
theorem block_s (c : Dev nD) (t : Fin cfg3.N) (j : S64x128.Idx) : iblk3 V c 0 t j = V c main_v65 j := by
  obtain ⟨e0, e1, -⟩ := block_index_zero t
  show V c main_v65 (((cfg3.win 0).blk t).view.emb j) = V c main_v65 j
  refine congrArg _ (funext fun a => Fin.ext ?_)
  match a with
  | ⟨0, _⟩ => show win3_0.index t (0 : Fin 2) * 64 + 1 * (j 0).val = (j 0).val; omega
  | ⟨1, _⟩ => show win3_0.index t (1 : Fin 2) * 128 + 1 * (j 1).val = (j 1).val; omega

/-- Window 1's one block is the whole array of counts n. -/
theorem block_n (c : Dev nD) (t : Fin cfg3.N) (j : S64x1.Idx) : iblk3 V c 1 t j = V c main_v70 j := by
  obtain ⟨-, -, e0, e1, -⟩ := block_index_zero t
  show V c main_v70 (((cfg3.win 1).blk t).view.emb j) = V c main_v70 j
  refine congrArg _ (funext fun a => Fin.ext ?_)
  match a with
  | ⟨0, _⟩ => show win3_1.index t (0 : Fin 2) * 64 + 1 * (j 0).val = (j 0).val; omega
  | ⟨1, _⟩ => show win3_1.index t (1 : Fin 2) * 1 + 1 * (j 1).val = (j 1).val; omega

/-- Window 2's one block is the whole weight array wt. -/
theorem block_wt (c : Dev nD) (t : Fin cfg3.N) (j : S128x2.Idx) : iblk3 V c 2 t j = V c main_v71 j := by
  obtain ⟨-, -, -, -, e0, e1, -⟩ := block_index_zero t
  show V c main_v71 (((cfg3.win 2).blk t).view.emb j) = V c main_v71 j
  refine congrArg _ (funext fun a => Fin.ext ?_)
  match a with
  | ⟨0, _⟩ => show win3_2.index t (0 : Fin 2) * 128 + 1 * (j 0).val = (j 0).val; omega
  | ⟨1, _⟩ => show win3_2.index t (1 : Fin 2) * 2 + 1 * (j 1).val = (j 1).val; omega

/-- Window 3's one block is the whole bias row bl. -/
theorem block_bl (c : Dev nD) (t : Fin cfg3.N) (j : S1x2.Idx) : iblk3 V c 3 t j = V c main_v72 j := by
  obtain ⟨-, -, -, -, -, -, e0, e1, -⟩ := block_index_zero t
  show V c main_v72 (((cfg3.win 3).blk t).view.emb j) = V c main_v72 j
  refine congrArg _ (funext fun a => Fin.ext ?_)
  match a with
  | ⟨0, _⟩ => show win3_3.index t (0 : Fin 2) * 1 + 1 * (j 0).val = (j 0).val; omega
  | ⟨1, _⟩ => show win3_3.index t (1 : Fin 2) * 2 + 1 * (j 1).val = (j 1).val; omega

/-- The output window's one block sits at the array's origin: entry j of the block is entry j of the array. -/
theorem out_block_at_origin (t : Fin cfg3.N) (j : S64x2.Idx) : ((cfg3.win 4).blk t).view.emb j = j := by
  obtain ⟨-, -, -, -, -, -, -, -, e0, e1⟩ := block_index_zero t
  funext a; apply Fin.ext
  match a with
  | ⟨0, _⟩ => show win3_4.index t (0 : Fin 2) * 64 + 1 * (j 0).val = (j 0).val; omega
  | ⟨1, _⟩ => show win3_4.index t (1 : Fin 2) * 2 + 1 * (j 1).val = (j 1).val; omega

/-- What point t writes back is block t of the head of the four arrays as the region finds them. -/
theorem flushed_eq (c : Dev nD) (t : Fin cfg3.N) :
    (dat3 (F := Ideal) V c).flushed 4 t = ((cfg3.win 4).blk t).view.read (Elt Ideal)
      (Spec.head (V c main_v65) (V c main_v70) (V c main_v71) (V c main_v72)) := by
  show (cfg3.win 4).cut (grid3.coords t) ((dat3 V c).after 4 t) = _
  rw [after3_4]
  unfold out3_4
  rw [View.canon_unit_zero origin]
  simp only [View.ld_unit_zero (S := S64x128) origin, View.ld_unit_zero (S := S64x1) origin,
    View.ld_unit_zero (S := S128x2) origin, View.ld_unit_zero (S := S1x2) origin]
  rw [payload_eq_head (iblk3 V c 0 t) (iblk3 V c 1 t) (iblk3 V c 2 t) (iblk3 V c 3 t)]
  funext j
  show Spec.head (iblk3 V c 0 t) (iblk3 V c 1 t) (iblk3 V c 2 t) (iblk3 V c 3 t) j
    = Spec.head (V c main_v65) (V c main_v70) (V c main_v71) (V c main_v72) (((cfg3.win 4).blk t).view.emb j)
  rw [out_block_at_origin t j]
  unfold Spec.head
  simp only [block_s V c t, block_n V c t, block_wt V c t, block_bl V c t]

end Blocks

/-- An index of the output array is in point t's block iff each coordinate is in the block's range on its axis. -/
theorem mem_blk (t : Fin cfg3.N) (i : S64x2.Idx) :
    i ∈ ((cfg3.win 4).blk t).view.set ↔ ∀ a : Fin 2, win3_4.index t a * S64x2.size a ≤ (i a).val ∧ (i a).val < win3_4.index t a * S64x2.size a + S64x2.size a := by
  show i ∈ ((View.whole main_v73).slice (win3_4.rect t)).set ↔ _
  rw [View.set_slice_whole, Rect.mem_set_unit]
  exact Iff.rfl

/-- The one block covers the whole output array: rows 0 to 63 and columns 0 to 1. -/
theorem one_block_covers (i : S64x2.Idx) : ∃ t : Fin cfg3.N, (cfg3.win 4).flush t = true ∧ i ∈ ((cfg3.win 4).blk t).view.set := by
  refine ⟨t3_0, flush3_4 t3_0, ?_⟩
  rw [mem_blk]
  obtain ⟨-, -, -, -, -, -, -, -, e0, e1⟩ := block_index_zero t3_0
  intro a
  match a with
  | ⟨0, _⟩ =>
    show win3_4.index t3_0 (0 : Fin 2) * 64 ≤ (i 0).val ∧ (i 0).val < win3_4.index t3_0 (0 : Fin 2) * 64 + 64
    have h : (i 0).val < 64 := (i 0).isLt
    omega
  | ⟨1, _⟩ =>
    show win3_4.index t3_0 (1 : Fin 2) * 2 ≤ (i 1).val ∧ (i 1).val < win3_4.index t3_0 (1 : Fin 2) * 2 + 2
    have h : (i 1).val < 2 := (i 1).isLt
    omega

/-- After region 3 its output array is the head of the four arrays it read. -/
theorem value (V : (c : Dev nD) → (b : Ref sig .tc) → Buf (Elt Ideal) ((c : Thread nD τ).loc b)) (c : Dev nD) :
    (dat3 (F := Ideal) V c).arrAt 4 cfg3.N = Spec.head (V c main_v65) (V c main_v70) (V c main_v71) (V c main_v72) :=
  (dat3 (F := Ideal) V c).arrAt_eq_of_cover 4 (Spec.head (V c main_v65) (V c main_v70) (V c main_v71) (V c main_v72))
    (fun t _ => flushed_eq V c t) one_block_covers

end Cert.KernelIdeal.Region3

end
-- ==== Proof.KernelHostB.lean ====
/-
  The kernel program's result array at the last segment boundary, read back through the four regions and the host arithmetic between them: the one term `kernelValue` of the nine arguments.

  The fold is walked forwards, one buffer at one boundary per lemma. Region 0 leaves max(A·W1 + b1, 0) of the
  aggregated features A; region 1 leaves its product with W2; the host arithmetic before region 2 aggregates that
  product over the same messages (the endpoints and the per-edge weight are still those of region 0's entry, no
  region and no later host operation writing them) and reshapes the labels and the second bias; region 2 leaves the
  pooled sums; the host arithmetic before region 3 counts the nodes of each graph, transposes the head's weight and
  reshapes its bias; region 3 leaves the head of the per-graph means.
-/
import proofs.«403521_j14817637171423_2_alg».proof.Proof.KernelHostA
import proofs.«403521_j14817637171423_2_alg».proof.Proof.Region0
import proofs.«403521_j14817637171423_2_alg».proof.Proof.Region1
import proofs.«403521_j14817637171423_2_alg».proof.Proof.Region2
import proofs.«403521_j14817637171423_2_alg».proof.Proof.Region3

noncomputable section

namespace Cert.KernelIdeal.HostB

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-! ## The nine arguments as launched, and the stages' terms of them -/

/-- The node features. -/
abbrev aX : FVec Ideal S50000x128 .f32 := m ((c : Thread nD τ).loc main_arg0)
/-- The edge list. -/
abbrev aEi : IVec S2x800000 32 := m ((c : Thread nD τ).loc main_arg1)
/-- The graph label of every node. -/
abbrev aBatch : IVec S50000 32 := m ((c : Thread nD τ).loc main_arg2)
/-- The first layer's weight and bias. -/
abbrev aW1 : FVec Ideal S128x256 .f32 := m ((c : Thread nD τ).loc main_arg3)
abbrev aB1 : FVec Ideal S256 .f32 := m ((c : Thread nD τ).loc main_arg4)
/-- The second layer's weight and bias. -/
abbrev aW2 : FVec Ideal S256x128 .f32 := m ((c : Thread nD τ).loc main_arg5)
abbrev aB2 : FVec Ideal S128 .f32 := m ((c : Thread nD τ).loc main_arg6)
/-- The head's weight and bias. -/
abbrev aWl : FVec Ideal S2x128 .f32 := m ((c : Thread nD τ).loc main_arg7)
abbrev aBl : FVec Ideal S2 .f32 := m ((c : Thread nD τ).loc main_arg8)

/-- The first layer's output: max(A·W1 + b1, 0) of the aggregated features A. -/
abbrev layer1 : FVec Ideal S50000x256 .f32 :=
  Spec.denseRelu (Terms.aggregate (aX m c) (aEi m c)) (aW1 m c) (shapeCast S1x256 (aB1 m c) shapeCasts_S256_S1x256)
/-- The second layer's product: the first layer's output times W2. -/
abbrev layer2 : FVec Ideal S50000x128 .f32 := Spec.dense (layer1 m c) (aW2 m c)
/-- The pooled sums: the second layer's product aggregated, biased, rectified and added up graph by graph. -/
abbrev pooledSums : FVec Ideal S64x128 .f32 :=
  Spec.pooled (Terms.aggregate (layer2 m c) (aEi m c)) (shapeCast S1x128 (aB2 m c) shapeCasts_S128_S1x128)
    (shapeCast S50000x1 (aBatch m c) shapeCasts_S50000_S50000x1)

/-- The weighted neighbourhood sum of a node array over GIVEN message sources, targets and weights: row i is the sum
    over the messages whose target is i of the source's row (rounded to the narrow format and widened again) times
    the message's weight. -/
def aggregateOver (v : FVec Ideal S50000x128 .f32) (src dst : IVec S850000 32) (w : FVec Ideal S850000 .f32) :
    FVec Ideal S50000x128 .f32 :=
  Host.scatterAdd scatter_S50000x128_S850000x1_S850000x128_1_0_0_1 (broadcastInDim S50000x128 ![] bcast_S_S50000x128 Terms.zeroF)
    (Terms.rawIdx dst)
    (mulf (extf .f32 (Host.gather gather_S50000x128_S850000x1_S850000x128_1_0_n_n_0_1_1128 (truncf .bf16 v bitsLt_bf16_f32) (Terms.wrapIdx src)) bitsLt_bf16_f32)
      (broadcastInDim S850000x128 ![0, 1] bcast_S850000x1_S850000x128_0_1
        (broadcastInDim S850000x1 ![0] bcast_S850000_S850000x1_0 w)))

/-- `aggregate` is `aggregateOver` at the edge list's own endpoints and weights. -/
theorem aggregate_eq (v : FVec Ideal S50000x128 .f32) (ei : IVec S2x800000 32) :
    Terms.aggregate v ei = aggregateOver v (Terms.srcIdx ei) (Terms.dstIdx ei) (Terms.edgeNorm ei) := rfl

/-! ## Region 0's exit -/

/-- The first layer: max(A·W1 + b1, 0) of the aggregated features. -/
theorem W4_v46 : W4 m ρ c (Proc.devRef .tc main_v46)
    = layer1 m c := by
  refine ((W4_arr m ρ c 3).trans (Region0.value (V3 m ρ) c)).trans ?_
  show Spec.denseRelu (W3 m ρ c (Proc.devRef .tc main_v44)) (W3 m ρ c (Proc.devRef .tc main_arg3))
    (W3 m ρ c (Proc.devRef .tc main_v45)) = _
  rw [HostA.W3_agg, HostA.W3_arg3, HostA.W3_b1]

/-- Region 0 writes none of the message sources, … -/
theorem W4_src : W4 m ρ c (Proc.devRef .tc main_v5) = Terms.srcIdx (aEi m c) :=
  (W4_of_ne m ρ c main_v5 (by decide)).trans (HostA.W3_src m ρ c)
/-- … the message targets, … -/
theorem W4_dst : W4 m ρ c (Proc.devRef .tc main_v6) = Terms.dstIdx (aEi m c) :=
  (W4_of_ne m ρ c main_v6 (by decide)).trans (HostA.W3_dst m ρ c)
/-- … the per-edge weight, … -/
theorem W4_norm : W4 m ρ c (Proc.devRef .tc main_v29) = Terms.edgeNorm (aEi m c) :=
  (W4_of_ne m ρ c main_v29 (by decide)).trans (HostA.W3_norm m ρ c)
/-- … nor the arguments the later segments read. -/
theorem W4_arg2 : W4 m ρ c (Proc.devRef .tc main_arg2) = (aBatch m c) :=
  (W4_of_ne m ρ c main_arg2 (by decide)).trans (HostA.W3_arg2 m ρ c)
theorem W4_arg5 : W4 m ρ c (Proc.devRef .tc main_arg5) = (aW2 m c) :=
  (W4_of_ne m ρ c main_arg5 (by decide)).trans (HostA.W3_arg5 m ρ c)
theorem W4_arg6 : W4 m ρ c (Proc.devRef .tc main_arg6) = (aB2 m c) :=
  (W4_of_ne m ρ c main_arg6 (by decide)).trans (HostA.W3_arg6 m ρ c)
theorem W4_arg7 : W4 m ρ c (Proc.devRef .tc main_arg7) = (aWl m c) :=
  (W4_of_ne m ρ c main_arg7 (by decide)).trans (HostA.W3_arg7 m ρ c)
theorem W4_arg8 : W4 m ρ c (Proc.devRef .tc main_arg8) = (aBl m c) :=
  (W4_of_ne m ρ c main_arg8 (by decide)).trans (HostA.W3_arg8 m ρ c)

/-! ## Region 1's exit -/

/-- The second layer's product: the first layer's output times W2. -/
theorem W5_v47 : W5 m ρ c (Proc.devRef .tc main_v47)
    = layer2 m c := by
  refine ((W5_arr m ρ c 2).trans (Region1.value (V4 m ρ) c)).trans ?_
  show Spec.dense (W4 m ρ c (Proc.devRef .tc main_v46)) (W4 m ρ c (Proc.devRef .tc main_arg5)) = _
  rw [W4_v46, W4_arg5]

theorem W5_src : W5 m ρ c (Proc.devRef .tc main_v5) = Terms.srcIdx (aEi m c) :=
  (W5_of_ne m ρ c main_v5 (by decide)).trans (W4_src m ρ c)
theorem W5_dst : W5 m ρ c (Proc.devRef .tc main_v6) = Terms.dstIdx (aEi m c) :=
  (W5_of_ne m ρ c main_v6 (by decide)).trans (W4_dst m ρ c)
theorem W5_norm : W5 m ρ c (Proc.devRef .tc main_v29) = Terms.edgeNorm (aEi m c) :=
  (W5_of_ne m ρ c main_v29 (by decide)).trans (W4_norm m ρ c)
theorem W5_arg2 : W5 m ρ c (Proc.devRef .tc main_arg2) = (aBatch m c) :=
  (W5_of_ne m ρ c main_arg2 (by decide)).trans (W4_arg2 m ρ c)
theorem W5_arg6 : W5 m ρ c (Proc.devRef .tc main_arg6) = (aB2 m c) :=
  (W5_of_ne m ρ c main_arg6 (by decide)).trans (W4_arg6 m ρ c)
theorem W5_arg7 : W5 m ρ c (Proc.devRef .tc main_arg7) = (aWl m c) :=
  (W5_of_ne m ρ c main_arg7 (by decide)).trans (W4_arg7 m ρ c)
theorem W5_arg8 : W5 m ρ c (Proc.devRef .tc main_arg8) = (aBl m c) :=
  (W5_of_ne m ρ c main_arg8 (by decide)).trans (W4_arg8 m ρ c)

/-! ## Region 2's entry: the second aggregation and the two reshapes -/

/-- What the host arithmetic before region 2 leaves in its aggregation buffer, over the buffers it reads. -/
theorem W6_v62_over : W6 m ρ c (Proc.devRef .tc main_v62)
    = aggregateOver (W5 m ρ c (Proc.devRef .tc main_v47)) (W5 m ρ c (Proc.devRef .tc main_v5))
        (W5 m ρ c (Proc.devRef .tc main_v6)) (W5 m ρ c (Proc.devRef .tc main_v29)) := by
  show StableHlo.after hostOps2 (W5 m ρ c) (Proc.devRef .tc main_v62) = _
  after_results_simp
  rfl

/-- The second layer's product aggregated over the messages: the endpoints and the per-edge weight are still those
    region 0 was entered with. -/
theorem W6_v62 : W6 m ρ c (Proc.devRef .tc main_v62) = Terms.aggregate (layer2 m c) (aEi m c) := by
  rw [W6_v62_over, W5_v47, W5_src, W5_dst, W5_norm, aggregate_eq]

/-- The graph labels as a column. -/
theorem W6_v63 : W6 m ρ c (Proc.devRef .tc main_v63) = shapeCast S50000x1 (aBatch m c) shapeCasts_S50000_S50000x1 := by
  show StableHlo.after hostOps2 (W5 m ρ c) (Proc.devRef .tc main_v63) = _
  after_results
  rw [W5_arg2]
  rfl

/-- The second bias as a row. -/
theorem W6_v64 : W6 m ρ c (Proc.devRef .tc main_v64) = shapeCast S1x128 (aB2 m c) shapeCasts_S128_S1x128 := by
  show StableHlo.after hostOps2 (W5 m ρ c) (Proc.devRef .tc main_v64) = _
  after_results
  rw [W5_arg6]
  rfl

/-- The host arithmetic writes none of the arguments. -/
theorem W6_arg2 : W6 m ρ c (Proc.devRef .tc main_arg2) = (aBatch m c) := by
  refine Eq.trans ?_ (W5_arg2 m ρ c)
  show StableHlo.after hostOps2 (W5 m ρ c) (Proc.devRef .tc main_arg2) = _
  after_results
theorem W6_arg7 : W6 m ρ c (Proc.devRef .tc main_arg7) = (aWl m c) := by
  refine Eq.trans ?_ (W5_arg7 m ρ c)
  show StableHlo.after hostOps2 (W5 m ρ c) (Proc.devRef .tc main_arg7) = _
  after_results
theorem W6_arg8 : W6 m ρ c (Proc.devRef .tc main_arg8) = (aBl m c) := by
  refine Eq.trans ?_ (W5_arg8 m ρ c)
  show StableHlo.after hostOps2 (W5 m ρ c) (Proc.devRef .tc main_arg8) = _
  after_results

/-! ## Region 2's exit -/

/-- The pooled sums of the second layer's rectified rows. -/
theorem W7_v65 : W7 m ρ c (Proc.devRef .tc main_v65)
    = pooledSums m c := by
  refine ((W7_arr m ρ c 3).trans (Region2.value (V6 m ρ) c)).trans ?_
  show Spec.pooled (W6 m ρ c (Proc.devRef .tc main_v62)) (W6 m ρ c (Proc.devRef .tc main_v64))
    (W6 m ρ c (Proc.devRef .tc main_v63)) = _
  rw [W6_v62, W6_v64, W6_v63]

theorem W7_arg2 : W7 m ρ c (Proc.devRef .tc main_arg2) = (aBatch m c) :=
  (W7_of_ne m ρ c main_arg2 (by decide)).trans (W6_arg2 m ρ c)
theorem W7_arg7 : W7 m ρ c (Proc.devRef .tc main_arg7) = (aWl m c) :=
  (W7_of_ne m ρ c main_arg7 (by decide)).trans (W6_arg7 m ρ c)
theorem W7_arg8 : W7 m ρ c (Proc.devRef .tc main_arg8) = (aBl m c) :=
  (W7_of_ne m ρ c main_arg8 (by decide)).trans (W6_arg8 m ρ c)

/-! ## Region 3's entry: the graph sizes, the transposed weight and the reshaped bias -/

/-- The host arithmetic leaves the pooled sums alone. -/
theorem W8_v65 : W8 m ρ c (Proc.devRef .tc main_v65)
    = pooledSums m c := by
  refine Eq.trans ?_ (W7_v65 m ρ c)
  show StableHlo.after hostOps3 (W7 m ρ c) (Proc.devRef .tc main_v65) = _
  after_results

/-- The number of nodes of each graph, as a column. -/
theorem W8_v70 : W8 m ρ c (Proc.devRef .tc main_v70) = Terms.counts (aBatch m c) := by
  show StableHlo.after hostOps3 (W7 m ρ c) (Proc.devRef .tc main_v70) = _
  after_results
  rw [W7_arg2]
  rfl

/-- The head's weight, transposed. -/
theorem W8_v71 : W8 m ρ c (Proc.devRef .tc main_v71) = transpose S128x2 [1, 0] (aWl m c) transposes_S2x128_S128x2_1_0 := by
  show StableHlo.after hostOps3 (W7 m ρ c) (Proc.devRef .tc main_v71) = _
  after_results
  rw [W7_arg7]

/-- The head's bias as a row. -/
theorem W8_v72 : W8 m ρ c (Proc.devRef .tc main_v72) = shapeCast S1x2 (aBl m c) shapeCasts_S2_S1x2 := by
  show StableHlo.after hostOps3 (W7 m ρ c) (Proc.devRef .tc main_v72) = _
  after_results
  rw [W7_arg8]
  rfl

/-! ## Region 3's exit -/

/-- The result array after the last region is `kernelValue` of the launch contents of the arguments. -/
theorem W9_value : W9 m ρ c (Proc.devRef .tc main_v73)
    = Terms.kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W9_arr m ρ c 4).trans (Region3.value (V8 m ρ) c)).trans ?_
  show Spec.head (W8 m ρ c (Proc.devRef .tc main_v65)) (W8 m ρ c (Proc.devRef .tc main_v70))
    (W8 m ρ c (Proc.devRef .tc main_v71)) (W8 m ρ c (Proc.devRef .tc main_v72)) = _
  rw [W8_v65, W8_v70, W8_v71, W8_v72]
  rfl

end Cert.KernelIdeal.HostB

end
-- ==== Proof.IdxLaws.lean ====
/-
  How a row gather and a row scatter-add read their index column, for the dimension numbers jnp's `a[idx]` and
  `segment_sum` print: an operand of rows, one index word per update row, the columns carried along.
  A scatter sends update row e to operand row `tgt R w` — the word w read signed, when it lies in [0, R); otherwise
  the row is dropped. A gather reads operand row `clampRow R w` — the word read signed and clamped into [0, R − 1].
-/
import Idealize.ShloMosaic.PureOps.Ideal
import Idealize.ShloMosaic.PureOps.Ideal.Laws
import Idealize.ShloMosaic.Lib.ValueIdx

noncomputable section

namespace Cert.IdxLaws

open Idealize.ShloMosaic Idealize.ShloMosaic.ValueIdx

/-- The operand row a scatter sends an update row to: the index word read signed, when it is a row. -/
def tgt (n : Nat) (w : BitVec 32) : Option (Fin n) :=
  if h : 0 ≤ w.toInt ∧ w.toInt < (n : Int) then some ⟨w.toInt.toNat, by omega⟩ else none

/-- The operand row a gather reads: the index word read signed, clamped into the rows. -/
def clampRow (n : Nat) (hn : 0 < n) (w : BitVec 32) : Fin n := ⟨min w.toInt.toNat (n - 1), by omega⟩

/-- Two rank-2 indices agree exactly when their rows agree and their columns agree. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- The row scatter's dimension numbers as a literal record: update axis 1 is the window, operand axis 0 is
    inserted and is the one axis an index word addresses, the index vector lies along axis 1 of the index array. -/
abbrev SD (R E C : Nat) (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ := ⟨[1], [0], [0], 1, wf⟩

/-- Where update entry (e, c) lands: on axis 0 the start is the e-th index word read signed and the window
    coordinate is 0; on axis 1 the start is 0 and the window coordinate is c < C. So the entry lands at (w, c) when
    0 ≤ w < R, and is dropped otherwise: the column never takes it out of the operand. -/
theorem resultIdx?_rows {R E C : Nat} (wf : ScatterDims.WF ⟨2, ![R, C]⟩ ⟨2, ![E, 1]⟩ ⟨2, ![E, C]⟩ [1] [0] [0] 1)
    (idx : IVec ⟨2, ![E, 1]⟩ 32) (e : Fin E) (c : Fin C) :
    (SD R E C wf).resultIdx? (ix2 e c) idx = (tgt R (idx (ix2 e 0))).map (fun i => ix2 i c) := by
  -- the index array is read at (e, 0): its axis 0 takes the update's row, its axis 1 is the (unit) index vector
  have hsi : ∀ k, (SD R E C wf).siIdx (ix2 e c) k = ix2 e 0 := by
    intro k; funext b
    match b with
    | ⟨0, _⟩ => rfl
    | ⟨1, _⟩ => exact Fin.ext (by simp [ScatterDims.siIdx])
  have hst0 : (SD R E C wf).start (ix2 e c) idx 0 = (idx (ix2 e 0)).toInt := by
    simp [ScatterDims.start, hsi]
  have hst1 : (SD R E C wf).start (ix2 e c) idx 1 = 0 := by
    simp [ScatterDims.start]
  have hw0 : (SD R E C wf).window (ix2 e c) 0 = 0 := by
    simp [ScatterDims.window, ScatterDims.sKept, Shape.kept]
  have hw1 : (SD R E C wf).window (ix2 e c) 1 = c.val := by
    simp [ScatterDims.window, ScatterDims.sKept, Shape.kept]
    rfl
  unfold ScatterDims.resultIdx? tgt
  by_cases hw : 0 ≤ (idx (ix2 e 0)).toInt ∧ (idx (ix2 e 0)).toInt < (R : Int)
  · -- the word names a row: both axes are in range, and the landing index is (w, c)
    have hall : ∀ a, 0 ≤ (SD R E C wf).start (ix2 e c) idx a + ((SD R E C wf).window (ix2 e c) a : Int)
        ∧ (SD R E C wf).start (ix2 e c) idx a + ((SD R E C wf).window (ix2 e c) a : Int)
            < ((⟨2, ![R, C]⟩ : Shape).size a : Int) := by
      intro a
      match a with
      | ⟨0, _⟩ =>
        show 0 ≤ (SD R E C wf).start (ix2 e c) idx 0 + ((SD R E C wf).window (ix2 e c) 0 : Int)
          ∧ (SD R E C wf).start (ix2 e c) idx 0 + ((SD R E C wf).window (ix2 e c) 0 : Int) < (R : Int)
        rw [hst0, hw0]; omega
      | ⟨1, _⟩ =>
        show 0 ≤ (SD R E C wf).start (ix2 e c) idx 1 + ((SD R E C wf).window (ix2 e c) 1 : Int)
          ∧ (SD R E C wf).start (ix2 e c) idx 1 + ((SD R E C wf).window (ix2 e c) 1 : Int) < (C : Int)
        rw [hst1, hw1]; have := c.isLt; omega
    rw [dif_pos hall, dif_pos hw, Option.map_some]
    congr 1
    funext a
    apply Fin.ext
    match a with
    | ⟨0, _⟩ =>
      show ((SD R E C wf).start (ix2 e c) idx 0 + ((SD R E C wf).window (ix2 e c) 0 : Int)).toNat = _
      rw [hst0, hw0]; simp
    | ⟨1, _⟩ =>
      show ((SD R E C wf).start (ix2 e c) idx 1 + ((SD R E C wf).window (ix2 e c) 1 : Int)).toNat = _
      rw [hst1, hw1]; simp
  · -- the word names no row: axis 0 is out of range, so the entry is dropped
    rw [dif_neg hw, Option.map_none, dif_neg]
    intro hall
    have h0 := hall 0
    rw [hst0, hw0] at h0
    apply hw
    have h0' : 0 ≤ (idx (ix2 e 0)).toInt + ((0 : Nat) : Int)
        ∧ (idx (ix2 e 0)).toInt + ((0 : Nat) : Int) < (R : Int) := h0
    omega

/-- A scatter-add of rows, read at (i, c): the operand's entry plus the sum, over the update rows e whose index
    word names row i, of the update's entry (e, c). -/
theorem scatterAdd_rows {R E C : Nat} (d : ScatterDims ⟨2, ![R, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![R, C]⟩ : Shape).Idx → EReal) (idx : IVec ⟨2, ![E, 1]⟩ 32) (upd : (⟨2, ![E, C]⟩ : Shape).Idx → EReal)
    (i : Fin R) (c : Fin C) :
    Ideal.hostScatterAdd d x idx upd (ix2 i c)
      = x (ix2 i c) + ∑ e : Fin E, if tgt R (idx (ix2 e 0)) = some i then upd (ix2 e c) else 0 := by
  obtain ⟨uw, iw, sd, iv, wf⟩ := d
  dsimp only at h1 h2 h3 h4
  subst h1 h2 h3 h4
  unfold Ideal.hostScatterAdd
  congr 1
  -- the filtered sum over update indices, as a double sum over rows e and columns c' with an indicator
  rw [Finset.sum_filter, sum_idx2]
  refine Finset.sum_congr rfl (fun e _ => ?_)
  -- update entry (e, c') lands at (i, c) exactly when row e's word names i and c' = c
  have hrow : ∀ c' : Fin C, ((SD R E C wf).resultIdx? (ix2 e c') idx = some (ix2 i c))
      ↔ (tgt R (idx (ix2 e 0)) = some i ∧ c' = c) := by
    intro c'
    rw [resultIdx?_rows]
    cases tgt R (idx (ix2 e 0)) with
    | none => simp
    | some k => simp [ix2_inj]
  simp only [hrow]
  -- so the inner sum over columns keeps the one term c' = c, or nothing
  by_cases ht : tgt R (idx (ix2 e 0)) = some i
  · simp [ht]
  · simp [ht]

/-- A gather of rows, read at (e, c): the operand's entry (row the e-th index word names, clamped; column c). -/
theorem gather_rows {R E C : Nat} (hR : 0 < R) (d : GatherDims ⟨2, ![R, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    {α : Type} (x : (⟨2, ![R, C]⟩ : Shape).Idx → α) (idx : IVec ⟨2, ![E, 1]⟩ 32) (e : Fin E) (c : Fin C) :
    Host.gather d x idx (ix2 e c) = x (ix2 (clampRow R hR (idx (ix2 e 0))) c) := by
  obtain ⟨od, cs, ob, sb, sim, iv, ss, wf⟩ := d
  dsimp only at h1 h2 h3 h4 h5 h6 h7
  subst h1 h2 h3 h4 h5 h6 h7
  unfold Host.gather
  congr 1
  funext a
  apply Fin.ext
  match a with
  | ⟨0, _⟩ =>
    -- axis 0 is collapsed: no offset, no batching; its start is the word at (e, 0), clamped into [0, R − 1]
    have hsi : ∀ k, (GatherDims.mk (s := ⟨2, ![R, C]⟩) (si := ⟨2, ![E, 1]⟩) (t := ⟨2, ![E, C]⟩)
        [1] [0] [] [] [0] 1 ![1, C] wf).siIdx (ix2 e c) k = ix2 e 0 := by
      intro k; funext b
      match b with
      | ⟨0, _⟩ => rfl
      | ⟨1, _⟩ => exact Fin.ext (by simp [GatherDims.siIdx])
    simp [GatherDims.operandIdx, GatherDims.start, GatherDims.offCoord, GatherDims.batchCoord, GatherDims.sKept,
      Shape.kept, clampRow, hsi]
  | ⟨1, _⟩ =>
    -- axis 1 is the one offset axis: start 0 (no index word addresses it), offset the result's column c
    simp [GatherDims.operandIdx, GatherDims.start, GatherDims.offCoord, GatherDims.batchCoord, GatherDims.sKept,
      Shape.kept, clampRow]
    rfl

end Cert.IdxLaws

end
-- ==== Proof.BridgeLayer1Aux.lean ====
/-
  Sums of products of finite extended reals. The extended reals are not a ring: a product does not distribute over a
  sum when an infinity meets a sign change. Where every entry is a real number it does, because the whole expression
  is then the image of an expression over the reals. This file proves the one exchange the first layer needs: for a set
  T of messages, rows a(e, ·), weights n(e) and a column w(·), all real,
      Σ_k (0 + Σ_{e ∈ T} a(e, k) · n(e)) · w(k)  =  0 + Σ_{e ∈ T} (Σ_k a(e, k) · w(k)) · n(e).
-/
import Mathlib.Data.EReal.Basic
import Mathlib.Data.EReal.Operations
import Mathlib.Algebra.BigOperators.Group.Finset.Basic
import Mathlib.Algebra.BigOperators.Group.Finset.Sigma
import Mathlib.Algebra.BigOperators.Ring.Finset
import Mathlib.Tactic.Ring

namespace Cert.Bridge.Aux

open scoped BigOperators

/-- An extended real is finite when it is neither infinity. -/
def Fin' (x : EReal) : Prop := x ≠ ⊥ ∧ x ≠ ⊤

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite extended real is the image of a real. -/
theorem exists_real {x : EReal} (h : x ≠ ⊥ ∧ x ≠ ⊤) : ∃ r : ℝ, x = (r : EReal) :=
  ⟨x.toReal, (EReal.coe_toReal h.2 h.1).symm⟩

/-- The image of a real is finite. -/
theorem coe_finite (r : ℝ) : ((r : ℝ) : EReal) ≠ ⊥ ∧ ((r : ℝ) : EReal) ≠ ⊤ :=
  ⟨EReal.coe_ne_bot r, EReal.coe_ne_top r⟩

/-- A product of two finite extended reals is finite. -/
theorem mul_finite {x y : EReal} (hx : x ≠ ⊥ ∧ x ≠ ⊤) (hy : y ≠ ⊥ ∧ y ≠ ⊤) : x * y ≠ ⊥ ∧ x * y ≠ ⊤ := by
  obtain ⟨a, rfl⟩ := exists_real hx
  obtain ⟨b, rfl⟩ := exists_real hy
  rw [← EReal.coe_mul]
  exact coe_finite _

/-- The exchange over the reals: both sides are the double sum of a(e, k) · n(e) · w(k) over T and k. -/
theorem exchange_real {E K : Type*} [Fintype E] [Fintype K] (T : E → Prop) [DecidablePred T]
    (a : E → K → ℝ) (n : E → ℝ) (w : K → ℝ) :
    ∑ k, (0 + ∑ e, if T e then a e k * n e else 0) * w k
      = 0 + ∑ e, if T e then (∑ k, a e k * w k) * n e else 0 := by
  simp only [zero_add]
  have h1 : ∀ k, (∑ e, if T e then a e k * n e else 0) * w k = ∑ e, if T e then a e k * w k * n e else 0 := by
    intro k
    rw [Finset.sum_mul]
    refine Finset.sum_congr rfl fun e _ => ?_
    split_ifs
    · ring
    · ring
  have h2 : ∀ e, (if T e then (∑ k, a e k * w k) * n e else 0) = ∑ k, if T e then a e k * w k * n e else 0 := by
    intro e
    split_ifs
    · rw [Finset.sum_mul]
    · simp
  simp only [h1, h2]
  exact Finset.sum_comm

/-- The exchange over finite extended reals. -/
theorem exchange {E K : Type*} [Fintype E] [Fintype K] (T : E → Prop) [DecidablePred T]
    (a : E → K → EReal) (n : E → EReal) (w : K → EReal)
    (ha : ∀ e k, a e k ≠ ⊥ ∧ a e k ≠ ⊤) (hn : ∀ e, n e ≠ ⊥ ∧ n e ≠ ⊤) (hw : ∀ k, w k ≠ ⊥ ∧ w k ≠ ⊤) :
    ∑ k, (0 + ∑ e, if T e then a e k * n e else 0) * w k
      = 0 + ∑ e, if T e then (∑ k, a e k * w k) * n e else 0 := by
  choose ar har using fun e k => exists_real (ha e k)
  choose nr hnr using fun e => exists_real (hn e)
  choose wr hwr using fun k => exists_real (hw k)
  have hL : ∀ k, (0 + ∑ e, if T e then a e k * n e else 0) * w k
      = (((0 + ∑ e, if T e then ar e k * nr e else 0) * wr k : ℝ) : EReal) := by
    intro k
    rw [EReal.coe_mul, EReal.coe_add, coe_sum, EReal.coe_zero, hwr k]
    congr 2
    refine Finset.sum_congr rfl fun e _ => ?_
    rw [har e k, hnr e]
    split_ifs
    · rw [EReal.coe_mul]
    · rfl
  have hR : ∀ e, (if T e then (∑ k, a e k * w k) * n e else 0)
      = (((if T e then (∑ k, ar e k * wr k) * nr e else 0 : ℝ)) : EReal) := by
    intro e
    split_ifs
    · rw [EReal.coe_mul, coe_sum, hnr e]
      congr 1
      refine Finset.sum_congr rfl fun k _ => ?_
      rw [har e k, hwr k, EReal.coe_mul]
    · rfl
  simp only [hL, hR]
  rw [← coe_sum, ← coe_sum, ← EReal.coe_zero, ← EReal.coe_add, exchange_real T ar nr wr]

end Cert.Bridge.Aux
-- ==== Proof.BridgeLayer1.lean ====
/-
  The first layer. The kernel program aggregates the input features over the edges and then multiplies by the weights; the reference multiplies first and aggregates the products. Over finite features and weights the two orders give one array: the sum over a node's messages of a weighted row, times a matrix, is the sum of the weighted rows times the matrix.

  Write T(p) for the messages landing on node p, r(e) for the row of the features message e reads, and n(e) for its
  weight. At (p, q) the kernel side is
      max( Σ_k (0 + Σ_{e ∈ T(p)} x(r(e), k) · n(e)) · W1(k, q) + b1(q), 0 )
  and the reference side
      max( (0 + Σ_{e ∈ T(p)} (Σ_k x(r(e), k) · W1(k, q)) · n(e)) + b1(q), 0 ).
  The index data T, r, n are the same terms of the edge list in both programs. Every weight n(e) is a product of two
  entries of the inverse-square-root-degree array, whose entries are real numbers whatever the degrees are: the
  inverse square root is taken only where the degree is positive, and of a positive extended real it is real. With x
  and W1 real by hypothesis, both sides are images of real expressions, and there the two orders of summation agree.
-/
import proofs.«403521_j14817637171423_2_alg».proof.Proof.KernelTerms
import proofs.«403521_j14817637171423_2_alg».proof.Proof.RefRead
import proofs.«403521_j14817637171423_2_alg».proof.Proof.IdxLaws
import proofs.«403521_j14817637171423_2_alg».proof.Proof.Consts
import proofs.«403521_j14817637171423_2_alg».proof.Proof.BridgeLayer1Aux
import Idealize.ShloMosaic.Lib.Pipeline.Value

noncomputable section

namespace Cert.Bridge

open Idealize.ShloMosaic Idealize.ShloMosaic.ValueIdx
open Cert.KernelIdeal (S50000x128 S2x800000 S50000 S128x256 S256 S256x128 S128 S2x128 S2 S1x256 S1x128 S50000x1 S128x2 S1x2 S64x2)

namespace L1

open Cert.KernelIdeal (S850000 S850000x1 S850000x128 S_)
open Cert.ReferenceIdeal (S850000x256 S50000x256)

/-! ### Real numbers among the extended reals -/

/-- 0 is a real number. -/
theorem zero_finite : (0 : EReal) ≠ ⊥ ∧ (0 : EReal) ≠ ⊤ := ⟨EReal.zero_ne_bot, EReal.zero_ne_top⟩

/-- The inverse square root of a positive extended real is a real number: of +∞ it is 0, of a positive real r it is
    1/√r. -/
theorem rsqrt_finite {d : EReal} (h : 0 < d) : Ideal.rsqrt d ≠ ⊥ ∧ Ideal.rsqrt d ≠ ⊤ := by
  induction d using EReal.rec with
  | bot => exact absurd h not_lt_bot
  | coe r =>
    have hr : 0 < r := by exact_mod_cast h
    rw [Ideal.rsqrt_coe, if_neg (not_lt.2 hr.le), if_neg hr.ne']
    exact Aux.coe_finite _
  | top => rw [Ideal.rsqrt_top]; exact zero_finite

/-- The comparison "greater than" answering 1 means greater than. -/
theorem lt_of_cmp_ogt {x y : EReal} (h : Ideal.cmp .ogt x y = 1#1) : y < x := by
  unfold Ideal.cmp at h
  by_contra hn
  simp [hn] at h

/-! ### Layout operations read at an index -/

/-- A scalar broadcast to any shape reads the scalar. -/
theorem bcast0_apply {α : Type} {t : Shape} (h : S_.BroadcastsInDim t (![] : Fin 0 → Fin t.rank)) (y : S_.Idx → α) (i : t.Idx) :
    broadcastInDim t ![] h y i = y ix0 :=
  broadcastInDim_apply _ h y i ix0 (fun a => a.elim0)

/-- The scalar 0.0 is 0. -/
theorem zeroF_eq : Cert.KernelIdeal.Terms.zeroF ix0 = (0 : EReal) :=
  (constant_apply (s := S_) (φ := .f32) 0x00000000#32 ix0).trans Cert.Consts.ofBits_zero

/-- A column of per-message values spread along the rows of a message-by-column array reads, at (e, c), the e-th
    value. -/
theorem bcast_col_apply {α : Type} {C : Nat}
    (h1 : (⟨1, ![850000]⟩ : Shape).BroadcastsInDim ⟨2, ![850000, 1]⟩ (![0] : Fin 1 → Fin 2))
    (h2 : (⟨2, ![850000, 1]⟩ : Shape).BroadcastsInDim ⟨2, ![850000, C]⟩ (![0, 1] : Fin 2 → Fin 2))
    (y : (⟨1, ![850000]⟩ : Shape).Idx → α) (e : Fin 850000) (c : Fin C) :
    broadcastInDim ⟨2, ![850000, C]⟩ ![0, 1] h2 (broadcastInDim ⟨2, ![850000, 1]⟩ ![0] h1 y) (ix2 e c) = y (ix1 e) := by
  rw [broadcastInDim_apply _ h2 _ (ix2 e c) (ix2 e 0) (fun a => match a with
      | ⟨0, _⟩ => by show e.val = if (850000 : Nat) = 1 then 0 else e.val; rw [if_neg (by decide)]
      | ⟨1, _⟩ => by show 0 = if (1 : Nat) = 1 then 0 else c.val; rw [if_pos rfl]),
    broadcastInDim_apply _ h1 y (ix2 e 0) (ix1 e) (fun a => match a with
      | ⟨0, _⟩ => by show e.val = if (850000 : Nat) = 1 then 0 else e.val; rw [if_neg (by decide)])]

/-- The host's accumulating scatter is, over the extended reals, the operand plus the sums of the updates. -/
theorem hostScatterAdd_eq {s si u : Shape} (d : ScatterDims s si u) (x : FVec Ideal s .f32) (idx : IVec si 32) (upd : FVec Ideal u .f32) :
    Host.scatterAdd d x idx upd = Ideal.hostScatterAdd d x idx upd := rfl

/-! ### The weights are real numbers -/

/-- The inverse square root where an array is positive and 0 elsewhere is always a real number. -/
theorem select_rsqrt_finite (deg : FVec Ideal S50000 .f32) (i : S50000.Idx) :
    select (cmpf (F := Ideal) .ogt deg (broadcastInDim S50000 ![] Cert.KernelIdeal.Gen.bcast_S_S50000 Cert.KernelIdeal.Terms.zeroF)) (Host.rsqrt deg)
      (broadcastInDim S50000 ![] Cert.KernelIdeal.Gen.bcast_S_S50000 (id Cert.KernelIdeal.Terms.zeroF)) i ≠ (⊥ : EReal)
    ∧ select (cmpf (F := Ideal) .ogt deg (broadcastInDim S50000 ![] Cert.KernelIdeal.Gen.bcast_S_S50000 Cert.KernelIdeal.Terms.zeroF)) (Host.rsqrt deg)
      (broadcastInDim S50000 ![] Cert.KernelIdeal.Gen.bcast_S_S50000 (id Cert.KernelIdeal.Terms.zeroF)) i ≠ (⊤ : EReal) := by
  rw [select_apply]
  by_cases hc : cmpf (F := Ideal) .ogt deg
      (broadcastInDim S50000 ![] Cert.KernelIdeal.Gen.bcast_S_S50000 Cert.KernelIdeal.Terms.zeroF) i = 1#1
  · rw [hc, select_one]
    have h2 : broadcastInDim S50000 ![] Cert.KernelIdeal.Gen.bcast_S_S50000 Cert.KernelIdeal.Terms.zeroF i < deg i := lt_of_cmp_ogt hc
    rw [bcast0_apply, zeroF_eq] at h2
    exact rsqrt_finite h2
  · rw [eq_zero_of_ne_one hc, select_zero, bcast0_apply]
    show Cert.KernelIdeal.Terms.zeroF ix0 ≠ (⊥ : EReal) ∧ Cert.KernelIdeal.Terms.zeroF ix0 ≠ (⊤ : EReal)
    rw [zeroF_eq]
    exact zero_finite

/-- Every entry of the inverse-square-root-degree array is a real number. -/
theorem invSqrtDeg_finite (ei : IVec S2x800000 32) (i : S50000.Idx) :
    Cert.KernelIdeal.Terms.invSqrtDeg ei i ≠ (⊥ : EReal) ∧ Cert.KernelIdeal.Terms.invSqrtDeg ei i ≠ (⊤ : EReal) := by
  unfold Cert.KernelIdeal.Terms.invSqrtDeg
  exact select_rsqrt_finite _ i

/-- A product of two gathers of an array of real numbers is an array of real numbers: each factor is an entry of the
    array, whichever row the index names. -/
theorem mul_gather_finite (dinv : FVec Ideal S50000 .f32) (hd : ∀ i, dinv i ≠ (⊥ : EReal) ∧ dinv i ≠ (⊤ : EReal))
    (a b : IVec S850000x1 32) (i : S850000.Idx) :
    mulf (Host.gather Cert.KernelIdeal.gather_S50000_S850000x1_S850000_n_0_n_n_0_1_1 dinv a)
        (Host.gather Cert.KernelIdeal.gather_S50000_S850000x1_S850000_n_0_n_n_0_1_1 dinv b) i ≠ (⊥ : EReal)
    ∧ mulf (Host.gather Cert.KernelIdeal.gather_S50000_S850000x1_S850000_n_0_n_n_0_1_1 dinv a)
        (Host.gather Cert.KernelIdeal.gather_S50000_S850000x1_S850000_n_0_n_n_0_1_1 dinv b) i ≠ (⊤ : EReal) := by
  rw [mulf_apply]
  exact Aux.mul_finite (hd _) (hd _)

/-- Every message's weight is a real number. -/
theorem edgeNorm_finite (ei : IVec S2x800000 32) (i : S850000.Idx) :
    Cert.KernelIdeal.Terms.edgeNorm ei i ≠ (⊥ : EReal) ∧ Cert.KernelIdeal.Terms.edgeNorm ei i ≠ (⊤ : EReal) := by
  unfold Cert.KernelIdeal.Terms.edgeNorm
  exact mul_gather_finite _ (invSqrtDeg_finite ei) _ _ i

/-! ### The kernel side at an index -/

/-- The 128-wide scatter read at (p, k). -/
theorem kScatter (x0 : FVec Ideal S50000x128 .f32) (di : IVec S850000x1 32) (u : FVec Ideal S850000x128 .f32)
    (p : Fin 50000) (k : Fin 128) :
    Host.scatterAdd Cert.KernelIdeal.scatter_S50000x128_S850000x1_S850000x128_1_0_0_1 x0 di u (ix2 p k)
      = x0 (ix2 p k) + ∑ e : Fin 850000, if Cert.IdxLaws.tgt 50000 (di (ix2 e 0)) = some p then u (ix2 e k) else 0 := by
  rw [hostScatterAdd_eq]
  exact Cert.IdxLaws.scatterAdd_rows Cert.KernelIdeal.scatter_S50000x128_S850000x1_S850000x128_1_0_0_1 rfl rfl rfl rfl x0 di u p k

/-- The kernel side's update at (e, k): entry k of the row message e reads, times the message's weight. The change of
    float format around the gather is the identity on extended reals. -/
theorem kUpdate (x : FVec Ideal S50000x128 .f32) (si : IVec S850000x1 32) (nw : FVec Ideal S850000 .f32)
    (e : Fin 850000) (k : Fin 128) :
    mulf (extf .f32 (Host.gather Cert.KernelIdeal.gather_S50000x128_S850000x1_S850000x128_1_0_n_n_0_1_1128
            (truncf .bf16 x Cert.KernelIdeal.Gen.bitsLt_bf16_f32) si) Cert.KernelIdeal.Gen.bitsLt_bf16_f32)
          (broadcastInDim S850000x128 ![0, 1] Cert.KernelIdeal.Gen.bcast_S850000x1_S850000x128_0_1
            (broadcastInDim S850000x1 ![0] Cert.KernelIdeal.Gen.bcast_S850000_S850000x1_0 nw)) (ix2 e k)
      = x (ix2 (Cert.IdxLaws.clampRow 50000 (by norm_num) (si (ix2 e 0))) k) * nw (ix1 e) := by
  rw [mulf_apply, extf_apply]
  rw [Cert.IdxLaws.gather_rows (by norm_num) Cert.KernelIdeal.gather_S50000x128_S850000x1_S850000x128_1_0_n_n_0_1_1128 rfl rfl rfl rfl rfl rfl rfl]
  rw [truncf_apply]
  rw [bcast_col_apply]

/-- The weighted neighbourhood sum read at (p, k): 0 plus, over the messages landing on node p, entry k of the row the
    message reads times the message's weight. -/
theorem aggregate_at (x : FVec Ideal S50000x128 .f32) (ei : IVec S2x800000 32) (p : Fin 50000) (k : Fin 128) :
    Cert.KernelIdeal.Terms.aggregate x ei (ix2 p k)
      = 0 + ∑ e : Fin 850000,
          if Cert.IdxLaws.tgt 50000 (Cert.KernelIdeal.Terms.rawIdx (Cert.KernelIdeal.Terms.dstIdx ei) (ix2 e 0)) = some p
          then x (ix2 (Cert.IdxLaws.clampRow 50000 (by norm_num)
                (Cert.KernelIdeal.Terms.wrapIdx (Cert.KernelIdeal.Terms.srcIdx ei) (ix2 e 0))) k)
              * Cert.KernelIdeal.Terms.edgeNorm ei (ix1 e)
          else 0 := by
  unfold Cert.KernelIdeal.Terms.aggregate
  rw [kScatter, bcast0_apply, zeroF_eq]
  refine congrArg (HAdd.hAdd (0 : EReal)) (Finset.sum_congr rfl fun e _ => ?_)
  rw [kUpdate]

/-- The affine layer followed by max(·, 0), read at (p, q). -/
theorem denseRelu_at (a : Spec.Arr 50000 128) (w : Spec.Arr 128 256) (b : Spec.Arr 1 256) (p : Fin 50000) (q : Fin 256) :
    Spec.denseRelu a w b (ix2 p q) = max ((∑ k : Fin 128, a (ix2 p k) * w (ix2 k q)) + b (ix2 0 q)) 0 := rfl

/-- The bias as a one-row array reads the bias. -/
theorem bias_at (b1 : FVec Ideal S256 .f32) (q : Fin 256) :
    shapeCast S1x256 b1 Cert.KernelIdeal.Gen.shapeCasts_S256_S1x256 (ix2 0 q) = b1 (ix1 q) :=
  shapeCast_apply b1 Cert.KernelIdeal.Gen.shapeCasts_S256_S1x256 (ix2 0 q) (ix1 q)
    (by rewrite [Shape.rowMajor_val_two, Shape.rowMajor_val_one]; show q.val = 0 * 256 + q.val; omega)

/-! ### The reference side at an index -/

/-- The 256-wide scatter read at (p, q). -/
theorem rScatter (x0 : FVec Ideal S50000x256 .f32) (di : IVec S850000x1 32) (u : FVec Ideal S850000x256 .f32)
    (p : Fin 50000) (q : Fin 256) :
    Host.scatterAdd Cert.ReferenceIdeal.scatter_S50000x256_S850000x1_S850000x256_1_0_0_1 x0 di u (ix2 p q)
      = x0 (ix2 p q) + ∑ e : Fin 850000, if Cert.IdxLaws.tgt 50000 (di (ix2 e 0)) = some p then u (ix2 e q) else 0 := by
  rw [hostScatterAdd_eq]
  exact Cert.IdxLaws.scatterAdd_rows Cert.ReferenceIdeal.scatter_S50000x256_S850000x1_S850000x256_1_0_0_1 rfl rfl rfl rfl x0 di u p q

/-- The matrix product's left index at (r, q), k is (r, k) … -/
theorem lidx_eq (r : Fin 50000) (q : Fin 256) (k : Fin 128) :
    Cert.ReferenceIdeal.ReadP.lidx_main_v4 (ix2 r q) k = ix2 r k :=
  funext fun a => match a with | ⟨0, _⟩ => rfl | ⟨1, _⟩ => rfl
/-- … and its right index is (k, q). -/
theorem ridx_eq (r : Fin 50000) (q : Fin 256) (k : Fin 128) :
    Cert.ReferenceIdeal.ReadP.ridx_main_v4 (ix2 r q) k = ix2 k q :=
  funext fun a => match a with | ⟨0, _⟩ => rfl | ⟨1, _⟩ => rfl

/-- The reference side's update at (e, q): entry q of the row of x · W1 message e reads, times the message's weight. -/
theorem rUpdate (x : FVec Ideal S50000x128 .f32) (W1 : FVec Ideal S128x256 .f32) (si : IVec S850000x1 32) (nw : FVec Ideal S850000 .f32)
    (e : Fin 850000) (q : Fin 256) :
    mulf (Host.gather Cert.ReferenceIdeal.gather_S50000x256_S850000x1_S850000x256_1_0_n_n_0_1_1256
            (Cert.ReferenceIdeal.ReadP.val_main_v4 (F := Ideal) x W1) si)
          (broadcastInDim S850000x256 ![0, 1] Cert.ReferenceIdeal.Gen.bcast_S850000x1_S850000x256_0_1
            (broadcastInDim S850000x1 ![0] Cert.ReferenceIdeal.Gen.bcast_S850000_S850000x1_0 nw)) (ix2 e q)
      = (∑ k : Fin 128, x (ix2 (Cert.IdxLaws.clampRow 50000 (by norm_num) (si (ix2 e 0))) k) * W1 (ix2 k q)) * nw (ix1 e) := by
  rw [mulf_apply]
  rw [Cert.IdxLaws.gather_rows (by norm_num) Cert.ReferenceIdeal.gather_S50000x256_S850000x1_S850000x256_1_0_n_n_0_1_1256 rfl rfl rfl rfl rfl rfl rfl]
  rw [Cert.ReferenceIdeal.ReadP.val_main_v4_apply]
  rw [bcast_col_apply]
  simp only [lidx_eq, ridx_eq]

/-- The reference's bias, broadcast twice, read at (p, q). -/
theorem rBias (b1 : FVec Ideal S256 .f32) (p : Fin 50000) (q : Fin 256) :
    Cert.ReferenceIdeal.ReadP.val_main_v45 (F := Ideal) b1 (ix2 p q) = b1 (ix1 q) := by
  rw [Cert.ReferenceIdeal.ReadP.val_main_v45_apply, Cert.ReferenceIdeal.ReadP.val_main_v44_apply]
  exact congrArg b1 (funext fun a => match a with | ⟨0, _⟩ => rfl)

/-- The reference's scatter of the weighted product rows, read at (p, q). -/
theorem rAggregate_at (x : FVec Ideal S50000x128 .f32) (ei : IVec S2x800000 32) (W1 : FVec Ideal S128x256 .f32)
    (p : Fin 50000) (q : Fin 256) :
    Cert.ReferenceIdeal.ReadP.val_main_v43 (F := Ideal) x ei W1 (ix2 p q)
      = 0 + ∑ e : Fin 850000,
          if Cert.IdxLaws.tgt 50000 (Cert.ReferenceIdeal.ReadP.val_main_v42 (F := Ideal) ei (ix2 e 0)) = some p
          then (∑ k : Fin 128, x (ix2 (Cert.IdxLaws.clampRow 50000 (by norm_num)
                (Cert.ReferenceIdeal.ReadP.val_main_v36 (F := Ideal) ei (ix2 e 0))) k) * W1 (ix2 k q))
              * Cert.ReferenceIdeal.ReadP.val_main_v30 (F := Ideal) ei (ix1 e)
          else 0 := by
  unfold Cert.ReferenceIdeal.ReadP.val_main_v43 Cert.ReferenceIdeal.ReadP.val_main_v40 Cert.ReferenceIdeal.ReadP.val_main_v37
    Cert.ReferenceIdeal.ReadP.val_main_v39 Cert.ReferenceIdeal.ReadP.val_main_v38
  rw [rScatter, Cert.ReferenceIdeal.ReadP.val_main_v41_apply, Cert.ReferenceIdeal.ReadP.val_main_cst_8_apply,
    Ideal.ofBits_def, Cert.Consts.ofBits_zero]
  refine congrArg (HAdd.hAdd (0 : EReal)) (Finset.sum_congr rfl fun e _ => ?_)
  rw [rUpdate]

/-- The reference's first hidden array read at (p, q). -/
theorem ref_at (x : FVec Ideal S50000x128 .f32) (ei : IVec S2x800000 32) (W1 : FVec Ideal S128x256 .f32) (b1 : FVec Ideal S256 .f32)
    (p : Fin 50000) (q : Fin 256) :
    Cert.ReferenceIdeal.ReadP.val_main_v47 (F := Ideal) x ei W1 b1 (ix2 p q)
      = max (Cert.ReferenceIdeal.ReadP.val_main_v43 (F := Ideal) x ei W1 (ix2 p q) + b1 (ix1 q)) 0 := by
  rw [Cert.ReferenceIdeal.ReadP.val_main_v47_apply, Cert.ReferenceIdeal.ReadP.val_main_v46_apply,
    Cert.ReferenceIdeal.ReadP.val_main_call1_v0_apply, Cert.ReferenceIdeal.ReadP.val_main_call1_cst_apply,
    Ideal.maximumf_def, Ideal.addf_def, Ideal.ofBits_def, Cert.Consts.ofBits_zero, rBias]

end L1

/-- Layer 1, both orders: max(aggregate(x) · W1 + b1, 0) is the reference's first hidden array. -/
theorem layer1 (x : FVec Ideal S50000x128 .f32) (ei : IVec S2x800000 32) (W1 : FVec Ideal S128x256 .f32) (b1 : FVec Ideal S256 .f32)
    (hx : (∀ i, x i ≠ ⊥ ∧ x i ≠ ⊤)) (hW1 : (∀ i, W1 i ≠ ⊥ ∧ W1 i ≠ ⊤)) :
    Spec.denseRelu (Cert.KernelIdeal.Terms.aggregate x ei) W1 (shapeCast S1x256 b1 Cert.KernelIdeal.Gen.shapeCasts_S256_S1x256)
      = Cert.ReferenceIdeal.ReadP.val_main_v47 (F := Ideal) x ei W1 b1 := by
  funext j
  obtain ⟨p, q, rfl⟩ : ∃ (p : Fin 50000) (q : Fin 256), j = ix2 p q := ⟨j 0, j 1, eq_ix2 j⟩
  have e1 : Cert.ReferenceIdeal.ReadP.val_main_v42 (F := Ideal) ei
      = Cert.KernelIdeal.Terms.rawIdx (Cert.KernelIdeal.Terms.dstIdx ei) := rfl
  have e2 : Cert.ReferenceIdeal.ReadP.val_main_v36 (F := Ideal) ei
      = Cert.KernelIdeal.Terms.wrapIdx (Cert.KernelIdeal.Terms.srcIdx ei) := rfl
  have e3 : Cert.ReferenceIdeal.ReadP.val_main_v30 (F := Ideal) ei = Cert.KernelIdeal.Terms.edgeNorm ei := rfl
  rw [L1.ref_at, L1.rAggregate_at, e1, e2, e3, L1.denseRelu_at, L1.bias_at]
  simp only [L1.aggregate_at]
  refine congrArg (fun s : EReal => max (s + b1 (ix1 q)) 0) ?_
  exact Aux.exchange
    (fun e : Fin 850000 => Cert.IdxLaws.tgt 50000
      (Cert.KernelIdeal.Terms.rawIdx (Cert.KernelIdeal.Terms.dstIdx ei) (ix2 e 0)) = some p)
    (fun (e : Fin 850000) (k : Fin 128) => x (ix2 (Cert.IdxLaws.clampRow 50000 (by norm_num)
      (Cert.KernelIdeal.Terms.wrapIdx (Cert.KernelIdeal.Terms.srcIdx ei) (ix2 e 0))) k))
    (fun e : Fin 850000 => Cert.KernelIdeal.Terms.edgeNorm ei (ix1 e))
    (fun k : Fin 128 => W1 (ix2 k q))
    (fun e k => hx _) (fun e => L1.edgeNorm_finite ei _) (fun k => hW1 _)

end Cert.Bridge

end
-- ==== Proof.BridgeLayer2.lean ====
/-
  The second layer up to its aggregation: the kernel program's matrix product and weighted neighbourhood sum of the first hidden array are the reference's, operation by operation (a change of float format is the identity on the extended reals).
-/
import proofs.«403521_j14817637171423_2_alg».proof.Proof.KernelTerms
import proofs.«403521_j14817637171423_2_alg».proof.Proof.RefRead
import proofs.«403521_j14817637171423_2_alg».proof.Proof.IdxLaws
import proofs.«403521_j14817637171423_2_alg».proof.Proof.Consts

noncomputable section

namespace Cert.Bridge

open Idealize.ShloMosaic Idealize.ShloMosaic.ValueIdx
open Cert.KernelIdeal (S50000x128 S2x800000 S50000 S128x256 S256 S256x128 S128 S2x128 S2 S1x256 S1x128 S50000x1 S128x2 S1x2 S64x2)

namespace L2

/-! ## The index columns and the per-edge weight: the same terms of the edge list on both sides

The reference computes the endpoints (with the self loops appended), the degrees, their inverse square roots and the
per-edge weight a second time for its second layer; each is, operation for operation, the term the kernel side names. -/

/-- The sources with the self loops appended. -/
theorem srcIdx_eq (ei : IVec S2x800000 32) :
    Cert.KernelIdeal.Terms.srcIdx ei = Cert.ReferenceIdeal.ReadP.val_main_v50 (F := Ideal) ei := rfl

/-- The targets with the self loops appended. -/
theorem dstIdx_eq (ei : IVec S2x800000 32) :
    Cert.KernelIdeal.Terms.dstIdx ei = Cert.ReferenceIdeal.ReadP.val_main_v51 (F := Ideal) ei := rfl

/-- The wrapped source column the second gather of node rows reads. -/
theorem wrapSrc_eq (ei : IVec S2x800000 32) :
    Cert.KernelIdeal.Terms.wrapIdx (Cert.KernelIdeal.Terms.srcIdx ei) = Cert.ReferenceIdeal.ReadP.val_main_v80 (F := Ideal) ei := rfl

/-- The raw target column the second scatter reads. -/
theorem rawDst_eq (ei : IVec S2x800000 32) :
    Cert.KernelIdeal.Terms.rawIdx (Cert.KernelIdeal.Terms.dstIdx ei) = Cert.ReferenceIdeal.ReadP.val_main_v86 (F := Ideal) ei := rfl

/-- The inverse square root degrees, as the reference recomputes them. -/
theorem invSqrtDeg_eq (ei : IVec S2x800000 32) :
    Cert.KernelIdeal.Terms.invSqrtDeg ei = Cert.ReferenceIdeal.ReadP.val_main_v59 (F := Ideal) ei := rfl

/-- The per-edge weight, as the reference recomputes it. -/
theorem edgeNorm_eq (ei : IVec S2x800000 32) :
    Cert.KernelIdeal.Terms.edgeNorm ei = Cert.ReferenceIdeal.ReadP.val_main_v74 (F := Ideal) ei := rfl

/-! ## The matrix product -/

/-- h · W2 entry by entry is the reference's dot_general: both are the sum over k of h(i, k) · W2(k, j). -/
theorem dense_eq (x : FVec Ideal S50000x128 .f32) (ei : IVec S2x800000 32) (W1 : FVec Ideal S128x256 .f32) (b1 : FVec Ideal S256 .f32)
    (W2 : FVec Ideal S256x128 .f32) :
    Spec.dense (Cert.ReferenceIdeal.ReadP.val_main_v47 (F := Ideal) x ei W1 b1) W2
      = Cert.ReferenceIdeal.ReadP.val_main_v48 (F := Ideal) x ei W1 b1 W2 := by
  funext j
  rw [Cert.ReferenceIdeal.ReadP.val_main_v48_apply]
  unfold Spec.dense
  refine Finset.sum_congr rfl fun k _ => ?_
  have el : (ix2 (j 0) k : (⟨2, ![50000, 256]⟩ : Shape).Idx) = Cert.ReferenceIdeal.ReadP.lidx_main_v48 j k :=
    funext fun a => Fin.ext (by match a with | ⟨0, _⟩ => rfl | ⟨1, _⟩ => rfl)
  have er : (ix2 k (j 1) : (⟨2, ![256, 128]⟩ : Shape).Idx) = Cert.ReferenceIdeal.ReadP.ridx_main_v48 j k :=
    funext fun a => Fin.ext (by match a with | ⟨0, _⟩ => rfl | ⟨1, _⟩ => rfl)
  rw [el, er]

end L2

/-! ## The weighted neighbourhood sum -/

/-- Layer 2 before its bias: aggregate(h · W2) of the reference's first hidden array h is the reference's second aggregation. -/
theorem layer2 (x : FVec Ideal S50000x128 .f32) (ei : IVec S2x800000 32) (W1 : FVec Ideal S128x256 .f32) (b1 : FVec Ideal S256 .f32)
    (W2 : FVec Ideal S256x128 .f32) :
    Cert.KernelIdeal.Terms.aggregate (Spec.dense (Cert.ReferenceIdeal.ReadP.val_main_v47 (F := Ideal) x ei W1 b1) W2) ei
      = Cert.ReferenceIdeal.ReadP.val_main_v87 (F := Ideal) x ei W1 b1 W2 := by
  rw [L2.dense_eq]
  rfl

end Cert.Bridge

end
-- ==== Proof.BridgePool.lean ====
/-
  The pooling and the head. The kernel program adds every node's rectified row into its graph's row by a product with the 0/1 matrix of the labels; the reference by a scatter-add over the label column, which drops a label outside 0 … 63 exactly as no column of the 0/1 matrix matches it. The means and the classifier head are then the same operations.
-/
import proofs.«403521_j14817637171423_2_alg».proof.Proof.KernelTerms
import proofs.«403521_j14817637171423_2_alg».proof.Proof.RefRead
import proofs.«403521_j14817637171423_2_alg».proof.Proof.IdxLaws
import proofs.«403521_j14817637171423_2_alg».proof.Proof.Consts

noncomputable section

namespace Cert.Bridge

open Idealize.ShloMosaic Idealize.ShloMosaic.ValueIdx
open Cert.KernelIdeal (S50000x128 S2x800000 S50000 S128x256 S256 S256x128 S128 S2x128 S2 S1x256 S1x128 S50000x1 S128x2 S1x2 S64x2)
open Cert.ReferenceIdeal.ReadP

/-- A 32-bit word read signed is the row g (below 64) exactly when it is the word of g: a word whose signed reading
    lies in [0, 64) has its top bit clear, so the signed and the unsigned readings agree, and a word is determined
    by its unsigned reading. -/
theorem tgt_eq_some_iff (g : Fin 64) (w : BitVec 32) :
    IdxLaws.tgt 64 w = some g ↔ w = BitVec.ofNat 32 g.val := by
  have hg : g.val < 64 := g.isLt
  have hw : w.toNat < 2 ^ 32 := w.isLt
  unfold IdxLaws.tgt
  constructor
  · intro h
    by_cases hc : 0 ≤ w.toInt ∧ w.toInt < ((64 : Nat) : Int)
    · rw [dif_pos hc] at h
      have hv : w.toInt.toNat = g.val := congrArg Fin.val (Option.some.inj h)
      apply BitVec.eq_of_toNat_eq
      rw [BitVec.toNat_ofNat]
      rw [BitVec.toInt_eq_toNat_cond] at hc hv
      by_cases h2 : 2 * w.toNat < 2 ^ 32
      · rw [if_pos h2] at hc hv
        omega
      · rw [if_neg h2] at hc
        omega
    · rw [dif_neg hc] at h
      exact absurd h (by simp)
  · intro h
    subst h
    have hm : g.val % 2 ^ 32 = g.val := Nat.mod_eq_of_lt (by omega)
    have ht : (BitVec.ofNat 32 g.val).toInt = (g.val : Int) := by
      rw [BitVec.toInt_eq_toNat_cond, BitVec.toNat_ofNat, hm, if_pos (by omega)]
    have hc : 0 ≤ (BitVec.ofNat 32 g.val).toInt ∧ (BitVec.ofNat 32 g.val).toInt < ((64 : Nat) : Int) := by
      rw [ht]; omega
    rw [dif_pos hc]
    refine congrArg some (Fin.ext ?_)
    show (BitVec.ofNat 32 g.val).toInt.toNat = g.val
    rw [ht]
    exact Int.toNat_natCast _

/-- A vector of 50000 words reshaped to a column, read at (i, 0). -/
theorem col_apply (batch : IVec S50000 32) (h : S50000.ShapeCasts S50000x1) (i : Fin 50000) :
    shapeCast S50000x1 batch h (ix2 i 0) = batch (ix1 i) := by
  refine shapeCast_apply batch h (ix2 i 0) (ix1 i) ?_
  rw [Shape.rowMajor_val_one, Shape.rowMajor_val_two]
  show i.val = i.val * 1 + 0
  omega

/-- A vector of 128 reals reshaped to a row, read at (0, f). -/
theorem row128_apply (b : FVec Ideal S128 .f32) (h : S128.ShapeCasts S1x128) (f : Fin 128) :
    shapeCast S1x128 b h (ix2 0 f) = b (ix1 f) := by
  refine shapeCast_apply b h (ix2 0 f) (ix1 f) ?_
  rw [Shape.rowMajor_val_one, Shape.rowMajor_val_two]
  show f.val = 0 * 128 + f.val
  omega

/-- A vector of 2 reals reshaped to a row, read at (0, c). -/
theorem row2_apply (b : FVec Ideal S2 .f32) (h : S2.ShapeCasts S1x2) (c : Fin 2) :
    shapeCast S1x2 b h (ix2 0 c) = b (ix1 c) := by
  refine shapeCast_apply b h (ix2 0 c) (ix1 c) ?_
  rw [Shape.rowMajor_val_one, Shape.rowMajor_val_two]
  show c.val = 0 * 2 + c.val
  omega

/-- The pooled sums. The reference's scatter-add into 64 zero rows, read at (g, f), is the sum over the nodes i whose
    label word names row g of max(a(i, f) + b2(f), 0); the kernel side's sum has the factor 1 on exactly those nodes
    and 0 on the others, and 1 · y = y, 0 · y = 0 for every extended real y. -/
theorem pooled_eq (x : FVec Ideal S50000x128 .f32) (ei : IVec S2x800000 32) (batch : IVec S50000 32) (W1 : FVec Ideal S128x256 .f32)
    (b1 : FVec Ideal S256 .f32) (W2 : FVec Ideal S256x128 .f32) (b2 : FVec Ideal S128 .f32) (g : Fin 64) (f : Fin 128) :
    Spec.pooled (val_main_v87 (F := Ideal) x ei W1 b1 W2)
        (shapeCast S1x128 b2 Cert.KernelIdeal.Gen.shapeCasts_S128_S1x128) (shapeCast S50000x1 batch Cert.KernelIdeal.Gen.shapeCasts_S50000_S50000x1) (ix2 g f)
      = val_main_v94 (F := Ideal) x ei batch W1 b1 W2 b2 (ix2 g f) := by
  unfold val_main_v94
  show _ = Ideal.hostScatterAdd _ _ _ _ (ix2 g f)
  rw [IdxLaws.scatterAdd_rows Cert.ReferenceIdeal.scatter_S64x128_S50000x1_S50000x128_1_0_0_1 rfl rfl rfl rfl]
  rw [val_main_v92_apply, val_main_cst_20_apply, Ideal.ofBits_def, Consts.ofBits_zero, zero_add]
  show (∑ i : Fin 50000, (if shapeCast S50000x1 batch _ (ix2 i 0) = BitVec.ofNat 32 g.val then (1 : EReal) else 0)
      * max (val_main_v87 (F := Ideal) x ei W1 b1 W2 (ix2 i f) + shapeCast S1x128 b2 _ (ix2 0 f)) 0) = _
  refine Finset.sum_congr rfl fun i _ => ?_
  have hl : val_main_v93 (F := Ideal) batch (ix2 i 0) = batch (ix1 i) := by
    rw [val_main_v93_apply]
    exact congrArg batch (funext fun a => match a with | ⟨0, _⟩ => rfl)
  have hb : val_main_v89 (F := Ideal) b2 (ix2 i f) = b2 (ix1 f) := by
    rw [val_main_v89_apply, val_main_v88_apply]
    exact congrArg b2 (funext fun a => match a with | ⟨0, _⟩ => rfl)
  have hz : val_main_call3_v0 (F := Ideal) (ix2 i f) = 0 := by
    rw [val_main_call3_v0_apply, val_main_call3_cst_apply, Ideal.ofBits_def, Consts.ofBits_zero]
  rw [col_apply, row128_apply, hl, val_main_v91_apply, val_main_v90_apply, hb, hz, Ideal.maximumf_def, Ideal.addf_def]
  by_cases hw : batch (ix1 i) = BitVec.ofNat 32 g.val
  · rw [if_pos hw, if_pos ((tgt_eq_some_iff g _).2 hw), one_mul]
  · rw [if_neg hw, if_neg (fun h => hw ((tgt_eq_some_iff g _).1 h)), zero_mul]

/-- The graph sizes: the kernel side's column at (g, 0) is the reference's count vector at g (the two scatters
    are the same term). -/
theorem counts_eq (batch : IVec S50000 32) (g : Fin 64) :
    Cert.KernelIdeal.Terms.counts batch (ix2 g 0) = val_main_v98 (F := Ideal) batch (ix1 g) := by
  unfold Cert.KernelIdeal.Terms.counts
  rw [shapeCast_apply _ _ (ix2 g 0) (ix1 g) (by
    rw [Shape.rowMajor_val_one, Shape.rowMajor_val_two]
    show g.val = g.val * 1 + 0
    omega)]
  unfold val_main_v98 val_main_v96 val_main_v97 val_main_v95 val_main_cst_22 val_main_cst_21
  rfl

/-- From the second aggregation on: the head of the pooled sums is the reference's result. -/
theorem poolHead (x : FVec Ideal S50000x128 .f32) (ei : IVec S2x800000 32) (batch : IVec S50000 32) (W1 : FVec Ideal S128x256 .f32)
    (b1 : FVec Ideal S256 .f32) (W2 : FVec Ideal S256x128 .f32) (b2 : FVec Ideal S128 .f32) (Wl : FVec Ideal S2x128 .f32) (bl : FVec Ideal S2 .f32) :
    Spec.head
      (Spec.pooled (Cert.ReferenceIdeal.ReadP.val_main_v87 (F := Ideal) x ei W1 b1 W2)
        (shapeCast S1x128 b2 Cert.KernelIdeal.Gen.shapeCasts_S128_S1x128) (shapeCast S50000x1 batch Cert.KernelIdeal.Gen.shapeCasts_S50000_S50000x1))
      (Cert.KernelIdeal.Terms.counts batch) (transpose S128x2 [1, 0] Wl Cert.KernelIdeal.Gen.transposes_S2x128_S128x2_1_0)
      (shapeCast S1x2 bl Cert.KernelIdeal.Gen.shapeCasts_S2_S1x2)
      = Cert.ReferenceIdeal.ReadP.val_main_v108 (F := Ideal) x ei batch W1 b1 W2 b2 Wl bl := by
  funext j
  obtain ⟨g, c, rfl⟩ : ∃ (g : Fin 64) (c : Fin 2), j = ix2 g c := ⟨j 0, j 1, eq_ix2 j⟩
  rw [val_main_v108_apply, val_main_v105_apply, val_main_v107_apply, val_main_v106_apply, Ideal.addf_def]
  show (∑ f : Fin 128, Ideal.div (Spec.pooled _ _ _ (ix2 g f)) (max (Cert.KernelIdeal.Terms.counts batch (ix2 g 0)) 1)
        * transpose S128x2 [1, 0] Wl _ (ix2 f c)) + shapeCast S1x2 bl _ (ix2 0 c) = _
  have hbl : bl (idx_main_v106 (idx_main_v107 (ix2 g c))) = bl (ix1 c) :=
    congrArg bl (funext fun a => match a with | ⟨0, _⟩ => rfl)
  rw [row2_apply, hbl]
  refine congrArg (· + bl (ix1 c)) (Finset.sum_congr rfl fun f _ => ?_)
  have hL : lidx_main_v105 (ix2 g c) f = ix2 g f := funext fun a => match a with | ⟨0, _⟩ => rfl | ⟨1, _⟩ => rfl
  have hR : ridx_main_v105 (ix2 g c) f = ix2 f c := funext fun a => match a with | ⟨0, _⟩ => rfl | ⟨1, _⟩ => rfl
  have hi : idx_main_v101 (idx_main_v102 (ix2 g f)) = ix1 g := funext fun a => match a with | ⟨0, _⟩ => rfl
  rw [hL, hR, val_main_v103_apply, Ideal.hostDivf_def, ← pooled_eq, val_main_v102_apply, val_main_v101_apply,
    val_main_v100_apply, val_main_v99_apply, val_main_cst_23_apply, Ideal.ofBits_def, Consts.ofBits_one,
    Ideal.maximumf_def, hi, counts_eq]
  rfl

end Cert.Bridge

end
-- ==== Proof.Finite.lean ====
/-
  What the precondition says of the two arrays the first layer's algebra needs: every entry of the input features and
  of the first weight matrix is a real number.
-/
import proofs.«403521_j14817637171423_2_alg».proof.Defs
import proofs.«403521_j14817637171423_2_alg».proof.Proof.Gen.Pre_finite_inputs
import Idealize.ShloMosaic.Lib.ReduceAll

noncomputable section

namespace Cert.Finite

open Idealize.ShloMosaic Idealize.SL.Sem Idealize.ShloMosaic.TcCoe

/-- The rank-0 shape has one index. -/
instance : Subsingleton Cert.Pre_finite_inputs.S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- |x| < +∞ holds only of a real x: |⊥| = max ⊥ ⊤ = ⊤ and |⊤| = ⊤ are not below ⊤. -/
theorem real_of_abs_lt (x : EReal) (h : Ideal.cmp .olt (max x (-x)) (Ideal.ofBits .f32 0x7F800000#32) = 1#1) :
    x ≠ (⊥ : EReal) ∧ x ≠ (⊤ : EReal) := by
  rw [inf_word] at h
  induction x using EReal.rec with
  | bot => simp [Ideal.cmp] at h
  | coe r => exact ⟨EReal.coe_ne_bot r, EReal.coe_ne_top r⟩
  | top => simp [Ideal.cmp] at h

/-- Under the precondition the input features and the first weights are finite everywhere. -/
theorem of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, m ((c.tc : Thread Cert.KernelIdeal.nD Cert.KernelIdeal.τ).loc Cert.KernelIdeal.main_arg0) i ≠ (⊥ : EReal)
        ∧ m ((c.tc : Thread Cert.KernelIdeal.nD Cert.KernelIdeal.τ).loc Cert.KernelIdeal.main_arg0) i ≠ (⊤ : EReal))
    ∧ (∀ i, m ((c.tc : Thread Cert.KernelIdeal.nD Cert.KernelIdeal.τ).loc Cert.KernelIdeal.main_arg3) i ≠ (⊥ : EReal)
        ∧ m ((c.tc : Thread Cert.KernelIdeal.nD Cert.KernelIdeal.τ).loc Cert.KernelIdeal.main_arg3) i ≠ (⊤ : EReal)) := by
  have h0 := congrFun (h c) (fun a => a.elim0 : Cert.Pre_finite_inputs.S_.Idx)
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨hx, hw⟩ := IntOp.andi_eq_one.1 h5
  exact ⟨fun i => real_of_abs_lt _ (Host.reduce_andi_all _ _ _ _ _ hx i),
    fun i => real_of_abs_lt _ (Host.reduce_andi_all _ _ _ _ _ hw i)⟩

end Cert.Finite

end
-- ==== Proof.lean ====
/-
  A two-layer graph convolution with mean pooling and a linear head, over 50000 nodes and 800000 edges (a self loop
  added at every node), 64 graphs, features 128 → 256 → 128 → 2.
  The kernel program computes it in four tiled dense stages with the irregular gather and scatter-add on the host between
  them: it aggregates the INPUT features over the edges and only then multiplies by the first weights (the reference
  multiplies first), keeps the second layer's order, pools by a product with the 0/1 matrix of the graph labels (the
  reference scatter-adds over the labels), and divides by the graph sizes inside the last stage.
  At the extended reals the two programs end with the same 64 × 2 array:
  · layer 1 — over finite features and weights, (Σ_e n_e · x[s_e, ·]) · W = Σ_e n_e · (x[s_e, ·] · W): sums exchanged and
    a factor moved through a finite sum of reals (`Bridge.layer1`; the only place the precondition is used; the edge
    weights n_e are real because every degree is a count);
  · layer 2 up to its aggregation — the same operations on both sides (`Bridge.layer2`);
  · pooling and head — Σ_i [label_i = g] · h[i, f] is the scatter-add's sum over the rows landing on g, a label outside
    0 … 63 contributing to neither (`Bridge.poolHead`).
  The kernel program's result is read off its run region by region (`Region0` … `Region3`, each region's output array
  as one function of the arrays it found) and through the host arithmetic between them (`KernelHostA`, `KernelHostB`);
  the reference's run and its operations read one at a time are `RefRun` and `RefRead`.
-/
import proofs.«403521_j14817637171423_2_alg».proof.Defs
import proofs.«403521_j14817637171423_2_alg».proof.Proof.Gen.Kernel
import proofs.«403521_j14817637171423_2_alg».proof.Proof.Gen.Kernel.Skeleton
import proofs.«403521_j14817637171423_2_alg».proof.Proof.Gen.Kernel.Launch
import proofs.«403521_j14817637171423_2_alg».proof.Proof.Gen.Kernel.Points
import proofs.«403521_j14817637171423_2_alg».proof.Proof.Gen.Kernel.Frame
import proofs.«403521_j14817637171423_2_alg».proof.Proof.Gen.KernelIdeal
import proofs.«403521_j14817637171423_2_alg».proof.Proof.Gen.KernelIdeal.Skeleton
import proofs.«403521_j14817637171423_2_alg».proof.Proof.Gen.KernelIdeal.Launch
import proofs.«403521_j14817637171423_2_alg».proof.Proof.Gen.KernelIdeal.Points
import proofs.«403521_j14817637171423_2_alg».proof.Proof.Gen.KernelIdeal.Frame
import proofs.«403521_j14817637171423_2_alg».proof.Proof.Gen.ReferenceIdeal
import proofs.«403521_j14817637171423_2_alg».proof.Proof.Gen.Pre_finite_inputs
import proofs.«403521_j14817637171423_2_alg».proof.Proof.KernelRun
import proofs.«403521_j14817637171423_2_alg».proof.Proof.KernelHostB
import proofs.«403521_j14817637171423_2_alg».proof.Proof.RefRead
import proofs.«403521_j14817637171423_2_alg».proof.Proof.BridgeLayer1
import proofs.«403521_j14817637171423_2_alg».proof.Proof.BridgeLayer2
import proofs.«403521_j14817637171423_2_alg».proof.Proof.BridgePool
import proofs.«403521_j14817637171423_2_alg».proof.Proof.Finite
import Idealize.ShloMosaic.Adequacy
import Idealize.ShloMosaic.Init

noncomputable section

namespace Cert.Proof

open Idealize.ShloMosaic Idealize.SL.Sem

/-- The two idealized programs, run from memories that agree on the arguments, end with the same result array:
    the kernel program's run names its result `kernelValue` of the arguments, the reference's run its composed term,
    and the three bridge steps make the two one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Terms.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun _ h c => ⟨(h c).1.trans (Cert.KernelIdeal.HostB.W9_value m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨hx, hW1⟩ := Cert.Finite.of_pre m hpre c
    rw [Cert.ReferenceIdeal.ReadP.val_main_v108_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    beta_reduce
    unfold Cert.KernelIdeal.Terms.kernelValue
    rw [Cert.Bridge.layer1 _ _ _ _ hx hW1, Cert.Bridge.layer2, Cert.Bridge.poolHead]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
